-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩
abbrev S1x1 : Shape := ⟨2, ![1, 1]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1 : Shape := ⟨1, ![1]⟩
abbrev S_ : Shape := ⟨0, ![]⟩

abbrev nBuf : Space → Nat
  | .hbm => 5
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1, .f32⟩
  | .hbm, ⟨3, _⟩ => ⟨S1x1, .f32⟩
  | .hbm, ⟨4, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1, .f32⟩
  | .local _ .vmem, ⟨5, _⟩ => ⟨S512x1, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x4096, .f32⟩
  | .hbm, ⟨20, _⟩ => ⟨S4096x1, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  slices_S8192x1024_S4096x1024_0_0 : S8192x1024.Slices ![0, 0] S4096x1024
  slices_S8192x1024_S4096x1024_4096_0 : S8192x1024.Slices ![4096, 0] S4096x1024
  reducesTo_S4096x1024_S4096_d1 : S4096x1024.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.Kernel.R0.lean ====
/-
  The first kernel region (row normalization), at the buffer contents V it is entered from.

  The grid has 16 points; point t stages rows [512 t, 512 t + 512) of the argument (window 0, all 1024 columns) and
  writes back the same rows of the two results: the normalized rows (window 1) and, per row, the sum of squares of
  the normalized row (window 2, one column). The body reads its input block whole and stores each output block whole,
  so what it leaves in an output's staging buffer is one function of the input block: the body's store payloads.
  Nothing here depends on the element instance.
-/
import proofs.«142804_j77936476553589_1_alg».proof.Proof.Gen.Kernel.Launch
import proofs.«142804_j77936476553589_1_alg».proof.Proof.Gen.Kernel.Skeleton
import proofs.«142804_j77936476553589_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is V's and
    whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S512x1 := Rect.unit (s := S512x1) ![0, 0] S512x1.size inb_S512x1_S512x1_0_0

/-! ## What the body leaves in each output window's buffer -/

/-- The normalized rows' buffer after the body: its one store, of the whole block. -/
def out0_1 (x0 : Vec F S512x1024 .f32) : Vec F S512x1024 .bf16 :=
  View.canon [⟨r0_0, k0_pay2 (View.ld x0 r0_0)⟩]

/-- The per-row sums' buffer after the body: its one store, of the whole block. -/
def out0_2 (x0 : Vec F S512x1024 .f32) : Vec F S512x1 .f32 :=
  View.canon [⟨r0_1, k0_pay3 (View.ld x0 r0_0)⟩]

theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The body on whole staging memrefs — the input's at contents x0, the outputs' at anything — runs to the continuation
    holding the input's as it was and each output's at its function of x0. -/
theorem sound_kernel0 (c : Dev nD) (E : Set ℕ) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S512x1 .f32) (harg3 : arg3.IsWhole)
    (x0 : Vec F S512x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of the first pipeline on core c: the arrays as the region finds them; after the body at point t the
    input's buffer at its block and each output's at its function of the input block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.R1Base.lean ====
/-
  The second kernel region (pairwise distances, accumulated), at the buffer contents V it is entered from: what its
  body's run and its proof data are stated over.

  The grid is 4 × 4, walked row by row: point t is tile (i, j) = (t / 4, t % 4). It stages rows
  [1024 i, 1024 i + 1024) of the normalized array (window 0: the left rows) and of the column of squared norms
  (window 2), rows [1024 (4 + j), 1024 (4 + j) + 1024) of the same two arrays (windows 1 and 3: the right rows), and
  one 1 × 1 output block (window 4) that every point revisits and only the last point writes back. The body resets
  the output block at the first point only (its one conditional), then adds the tile's sum to it.
-/
import proofs.«142804_j77936476553589_1_alg».proof.Proof.Gen.Kernel.Launch
import proofs.«142804_j77936476553589_1_alg».proof.Proof.Gen.Kernel.Skeleton
import proofs.«142804_j77936476553589_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at point t, each at its literal type: left rows, right rows, left norms, right norms. -/
abbrev lblk (c : Dev nD) (t : Fin cfg1.N) : Vec F S1024x1024 .bf16 := iblk1 V c 0 t
abbrev rblk (c : Dev nD) (t : Fin cfg1.N) : Vec F S1024x1024 .bf16 := iblk1 V c 1 t
abbrev lsq (c : Dev nD) (t : Fin cfg1.N) : Vec F S1024x1 .f32 := iblk1 V c 2 t
abbrev rsq (c : Dev nD) (t : Fin cfg1.N) : Vec F S1024x1 .f32 := iblk1 V c 3 t

/-- An input window's current staging buffer holds its block at every point, fetched there or not (where it is not
    fetched its block index has not moved), for any proof data whose array is V's and whose body leaves the block in
    place: the window is uncut and never idle. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: both coordinates are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only: decided over the sixteen points. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The staging memrefs as the pipeline passes them -/

/-- The output window's one staging buffer, through which its contents are stated. -/
abbrev VO1_4 : View sig .tc .vmem S1x1 .f32 := (Memref.whole cc1_stg4_0 : Memref sig .tc .vmem S1x1 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- The body's accesses of the output block: the block whole. -/
abbrev r1_4 : Rect S1x1 := Rect.unit (s := S1x1) ![0, 0] S1x1.size inb_S1x1_S1x1_0_0

end Cert.Kernel.Hand

end
-- ==== Proof.Kernel.R1.lean ====
/-
  The second kernel region's proof data and body obligation: the body's run in each of its two control cases (the
  reset taken at the first point only), what each leaves in the output block, the contents point by point, and the
  obligation at a generic point.
-/
import proofs.«142804_j77936476553589_1_alg».proof.Proof.Gen.Kernel.Launch
import proofs.«142804_j77936476553589_1_alg».proof.Proof.Gen.Kernel.Skeleton
import proofs.«142804_j77936476553589_1_alg».proof.Proof.Gen.Kernel.Points
import proofs.«142804_j77936476553589_1_alg».proof.Proof.Kernel.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run, case by case -/

set_option maxHeartbeats 1000000 in
/-- The body at the first point (the conditional taken). On whole staging memrefs, the four inputs' at their contents and
    the output's at anything, it runs to the continuation holding the inputs' as they were and the output's buffer with
    the listed pieces written (last first): the reset store, then the accumulating store over what the reset left. -/
noncomputable def kernelRun1_A (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : cond1_0 i)
    (x0 : Vec F S1024x1024 .bf16) (x1 : Vec F S1024x1024 .bf16) (x2 : Vec F S1024x1 .f32) (x3 : Vec F S1024x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc1__tpc_kernel i arg2 harg2 arg3 harg3 arg4 harg4 arg5 harg5 arg6 harg6) K } := by
  refine ⟨?_, fun E K => ?run⟩
  case run =>
    simp only [cc1__tpc_kernel_eq_skeleton]; unfold cc1__tpc_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The body at a later point (the conditional not taken). On whole staging memrefs, the four inputs' at their contents
    and the output's at its running contents, it runs to the continuation holding the inputs' as they were and the
    output's buffer with the listed pieces written: the one accumulating store over the running contents. -/
noncomputable def kernelRun1_B (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : ¬cond1_0 i)
    (x0 : Vec F S1024x1024 .bf16) (x1 : Vec F S1024x1024 .bf16) (x2 : Vec F S1024x1 .f32) (x3 : Vec F S1024x1 .f32)
    (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc1__tpc_kernel i arg2 harg2 arg3 harg3 arg4 harg4 arg5 harg5 arg6 harg6) K } := by
  refine ⟨?_, fun E K => ?run⟩
  case run =>
    simp only [cc1__tpc_kernel_eq_skeleton]; unfold cc1__tpc_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What each case leaves in the output block's buffer -/

/-- The first case's pieces tile the output block, so they cover it. -/
theorem cover1_A_4 (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : cond1_0 i)
    (x0 : Vec F S1024x1024 .bf16) (x1 : Vec F S1024x1024 .bf16) (x2 : Vec F S1024x1 .f32) (x3 : Vec F S1024x1 .f32) (y : S1x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1x1.size (by sl_kernel_rfl) y

/-- What the first case leaves in the output block's buffer: its pieces read back. -/
def out1_A_4 (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : cond1_0 i)
    (x0 : Vec F S1024x1024 .bf16) (x1 : Vec F S1024x1024 .bf16) (x2 : Vec F S1024x1 .f32) (x3 : Vec F S1024x1 .f32) : Vec F S1x1 .f32 :=
  VO1_4.read (Elt F) (VO1_4.writes (Elt F) VO1_4.junk (kernelRun1_A c i arg2 harg2 arg3 harg3 arg4 harg4 arg5 harg5 arg6 harg6 hc0 x0 x1 x2 x3).1)

/-- The later case's one piece tiles the output block, so it covers it. -/
theorem cover1_B_4 (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : ¬cond1_0 i)
    (x0 : Vec F S1024x1024 .bf16) (x1 : Vec F S1024x1024 .bf16) (x2 : Vec F S1024x1 .f32) (x3 : Vec F S1024x1 .f32) (xo4 : Vec F S1x1 .f32) (y : S1x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1.size (by sl_kernel_rfl) y

/-- What the later case leaves in the output block's buffer: its piece read back. -/
def out1_B_4 (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : ¬cond1_0 i)
    (x0 : Vec F S1024x1024 .bf16) (x1 : Vec F S1024x1024 .bf16) (x2 : Vec F S1024x1 .f32) (x3 : Vec F S1024x1 .f32) (xo4 : Vec F S1x1 .f32) : Vec F S1x1 .f32 :=
  VO1_4.read (Elt F) (VO1_4.writes (Elt F) VO1_4.junk (kernelRun1_B c i arg2 harg2 arg3 harg3 arg4 harg4 arg5 harg5 arg6 harg6 hc0 x0 x1 x2 x3 xo4).1)

/-- The zero offsets of a whole-block access, as a constant function. -/
theorem hz1 : (![0, 0] : Fin 2 → Nat) = fun _ => 0 := funext fun a => by fin_cases a <;> rfl

/-- The first case leaves the accumulating payload of the four input blocks over the reset payload: the accumulating
    store is the last and covers the block; the output it loads is what the reset store left. -/
theorem out1_A_4_eq (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : cond1_0 i)
    (x0 : Vec F S1024x1024 .bf16) (x1 : Vec F S1024x1024 .bf16) (x2 : Vec F S1024x1 .f32) (x3 : Vec F S1024x1 .f32) :
    out1_A_4 c i arg2 harg2 arg3 harg3 arg4 harg4 arg5 harg5 arg6 harg6 hc0 x0 x1 x2 x3 = k1_pay2 x0 x1 x2 x3 (k1_pay1 (F := F)) := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S1x1) hz1, View.readCov_unit_zero (S := S1x1) _ hz1]
  simp only [View.readAt_eq_ld, harg2.read_unread, harg3.read_unread, harg4.read_unread, harg5.read_unread,
    View.ld_unit_zero (S := S1024x1024) hz1, View.ld_unit_zero (S := S1024x1) hz1]

/-- The later case leaves the accumulating payload of the four input blocks over the running contents: its one store
    covers the block, and its loads read the whole buffers. -/
theorem out1_B_4_eq (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : ¬cond1_0 i)
    (x0 : Vec F S1024x1024 .bf16) (x1 : Vec F S1024x1024 .bf16) (x2 : Vec F S1024x1 .f32) (x3 : Vec F S1024x1 .f32) (xo4 : Vec F S1x1 .f32) :
    out1_B_4 c i arg2 harg2 arg3 harg3 arg4 harg4 arg5 harg5 arg6 harg6 hc0 x0 x1 x2 x3 xo4 = k1_pay2 x0 x1 x2 x3 xo4 := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero hz1]
  simp only [View.readAt_eq_ld, harg2.read_unread, harg3.read_unread, harg4.read_unread, harg5.read_unread, harg6.read_unread,
    View.ld_unit_zero (S := S1024x1024) hz1, View.ld_unit_zero (S := S1024x1) hz1, View.ld_unit_zero (S := S1x1) hz1]

/-! ## What the output block's buffer holds after each point -/

/-- No point after the first meets the body's condition. -/
theorem not_cond1_succ (n : ℕ) (hn : n + 1 < cfg1.N) : ¬cond1_0 (grid1.coords ⟨n + 1, hn⟩) := fun h => by
  have h1 := (hcond1_0 ⟨n + 1, hn⟩).mp h
  have hN : n + 1 < 16 := lt_of_lt_of_eq hn (show cfg1.N = 16 from N_1)
  dsimp only at h1; omega

/-- What the output block's staging buffer holds after the body at position n. -/
def outsAt1 (c : Dev nD) : (n : ℕ) → n < cfg1.N → Vec F S1x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (lblk V c ⟨0, hn⟩) (rblk V c ⟨0, hn⟩) (lsq V c ⟨0, hn⟩) (rsq V c ⟨0, hn⟩)
  | n + 1, hn => out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (not_cond1_succ n hn) (lblk V c ⟨n + 1, hn⟩) (rblk V c ⟨n + 1, hn⟩) (lsq V c ⟨n + 1, hn⟩) (rsq V c ⟨n + 1, hn⟩) (outsAt1 c n (Nat.lt_of_succ_lt hn))

/-- At the first point: the accumulating payload over the reset payload. -/
theorem outsAt1_zero (c : Dev nD) (h : 0 < cfg1.N) :
    outsAt1 V c 0 h = k1_pay2 (lblk V c ⟨0, h⟩) (rblk V c ⟨0, h⟩) (lsq V c ⟨0, h⟩) (rsq V c ⟨0, h⟩) (k1_pay1 (F := F)) :=
  out1_A_4_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr (Nat.zero_mod _)) (lblk V c ⟨0, h⟩) (rblk V c ⟨0, h⟩) (lsq V c ⟨0, h⟩) (rsq V c ⟨0, h⟩)

/-- At a later point: the accumulating payload over what the point before left. -/
theorem outsAt1_succ (c : Dev nD) (n : ℕ) (h : n + 1 < cfg1.N) :
    outsAt1 V c (n + 1) h = k1_pay2 (lblk V c ⟨n + 1, h⟩) (rblk V c ⟨n + 1, h⟩) (lsq V c ⟨n + 1, h⟩) (rsq V c ⟨n + 1, h⟩) (outsAt1 V c n (Nat.lt_of_succ_lt h)) :=
  out1_B_4_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (not_cond1_succ n h) (lblk V c ⟨n + 1, h⟩) (rblk V c ⟨n + 1, h⟩) (lsq V c ⟨n + 1, h⟩) (rsq V c ⟨n + 1, h⟩) (outsAt1 V c n (Nat.lt_of_succ_lt h))

/-- At the point the condition holds at: the first case's contents. -/
theorem outsAt1_A (c : Dev nD) (t : Fin cfg1.N) (h0 : t.val % 16 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (lblk V c t) (rblk V c t) (lsq V c t) (rsq V c t) := by
  obtain ⟨n, hn⟩ := t
  cases n with
  | zero => exact rfl
  | succ n =>
    exfalso
    have hN : n + 1 < 16 := lt_of_lt_of_eq hn (show cfg1.N = 16 from N_1)
    dsimp only at h0; omega

/-- At a point it does not hold at: the later case's contents, over what the point before left. -/
theorem outsAt1_B (c : Dev nD) (t : Fin cfg1.N) (h0 : ¬t.val % 16 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (lblk V c t) (rblk V c t) (lsq V c t) (rsq V c t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the second pipeline on core c. The two pairs of input windows that read one array hold it at
    complementary half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the output window's staging buffer holds what the body left at the point before: the point is
    not the first, the buffer is written back at the last point only, and the window is live and uncut. -/
theorem before1_4_B (c : Dev nD) (t : Fin cfg1.N) (h0 : ¬t.val % 16 = 0) (d) :
    (dat1 V c).before 4 t d = outsAt1 V c (t.val - 1) (Nat.lt_of_le_of_lt (Nat.sub_le _ _) t.isLt) := by
  have hN : t.val < 16 := lt_of_lt_of_eq t.isLt (show cfg1.N = 16 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the closed form of the condition says which case the
    point is in; at a later point the output's memref holds what the point before left; so that case's run applies.
    The invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 16 := lt_of_lt_of_eq t.isLt (show cfg1.N = 16 from N_1)
  by_cases h0 : t.val % 16 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (lblk V c t) (rblk V c t) (lsq V c t) (rsq V c t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (lblk V c t) (rblk V c t) (lsq V c t) (rsq V c t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Shared1.lean ====
/-
  The second kernel region reads each of its two input arrays through TWO windows (left rows and right rows). The
  core holds each such array whole; at the region's entry the array's ownership is halved, one half per window, and at
  its exit the halves — both at the array's unchanged contents — are joined again. The output array (one 1 × 1 block)
  is held whole throughout.
-/
import proofs.«142804_j77936476553589_1_alg».proof.Proof.Gen.Kernel.Launch
import proofs.«142804_j77936476553589_1_alg».proof.Proof.Gen.Kernel.Skeleton
import proofs.«142804_j77936476553589_1_alg».proof.Proof.Gen.Kernel.Points
import proofs.«142804_j77936476553589_1_alg».proof.Proof.Kernel.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three distinct buffers behind the region's five windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_0) ↦{fullShare} W main_v0_0) ∗ (((c : Thread nD τ).loc main_v0_1) ↦{fullShare} W main_v0_1)
          ∗ (((c : Thread nD τ).loc main_v1) ↦{fullShare} W main_v1)) := by
  unfold Pipeline.arrBufs
  exact bigSep_eq_bigSepL_of_eq [main_v0_0, main_v0_1, main_v1] (by decide) (by decide) _

/-- The pipeline's arrays at contents G, window by window: the two halves of each input array, the output array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_0) ↦{fullShare.left} G 0) ∗ (((c : Thread nD τ).loc main_v0_0) ↦{fullShare.right} G 1)
          ∗ (((c : Thread nD τ).loc main_v0_1) ↦{fullShare.left} G 2) ∗ (((c : Thread nD τ).loc main_v0_1) ↦{fullShare.right} G 3)
          ∗ (((c : Thread nD τ).loc main_v1) ↦{fullShare} G 4)) := by
  unfold Dat.arrays
  rw [bigSep_W1]
  rw [(arr_whole1 0).set_eq_univ, (arr_whole1 2).set_eq_univ, (arr_whole1 4).set_eq_univ]
  rfl

/-- A core's unscoped buffers are the buffers behind this region's arrays and the rest. -/
theorem unscopedBufs1_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec1 c W
          ∗ Pipeline.unscopedRest (Ix := Unit) (Name := ℕ) (U := UR sig nD τ) (Lvl := ℕ) spec1 c W) :=
  Pipeline.unscopedBufs_split₀ cfgs 1 winFacts₀1.arr_unscoped c W

/-- ENTRY. The core's unscoped buffers at the contents the region is entered from are the pipeline's arrays at their
    entry contents — each shared input array halved between its two windows — and the unscoped rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscopedBufs1_split, arrBufs1_eq, arrays1_eq]
  iintro ⟨⟨H0, H1, H2⟩, Hrest⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitr [Hrest]
  · isplitl [H0l]; · iexact H0l
    isplitl [H0r]; · iexact H0r
    isplitl [H1l]; · iexact H1l
    isplitl [H1r]; · iexact H1r
    iexact H2
  iexact Hrest

/-- EXIT. The pipeline's arrays after the last point — the input arrays' halves at their unchanged contents, the output
    array at what the last point wrote back — and the unscoped rest are the core's unscoped buffers at any contents W'
    that hold the output array's final contents and agree with the entry contents everywhere else. -/
theorem unscopedBufs_of_arrays1 (c : Dev nD) (W' : (b : Ref sig .tc) → Buf (Elt F) ((c : Thread nD τ).loc b))
    (h4 : (dat1 V c).arrAt 4 cfg1.N = W' main_v1)
    (h0 : W' main_v0_0 = V c main_v0_0) (h1 : W' main_v0_1 = V c main_v0_1)
    (hrest : ∀ b, b ∉ Finset.univ.image (Pipeline.arrRef spec1) → W' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c W' : sProp 𝕄) := by
  have e0 : (dat1 V c).arrAt 0 cfg1.N = W' main_v0_0 := ((dat1 V c).arrAt_in 0 rfl _).trans ((A_eq1 V c 0).trans h0.symm)
  have e1 : (dat1 V c).arrAt 1 cfg1.N = W' main_v0_0 := ((dat1 V c).arrAt_in 1 rfl _).trans ((A_eq1 V c 1).trans h0.symm)
  have e2 : (dat1 V c).arrAt 2 cfg1.N = W' main_v0_1 := ((dat1 V c).arrAt_in 2 rfl _).trans ((A_eq1 V c 2).trans h1.symm)
  have e3 : (dat1 V c).arrAt 3 cfg1.N = W' main_v0_1 := ((dat1 V c).arrAt_in 3 rfl _).trans ((A_eq1 V c 3).trans h1.symm)
  have er : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c W' := by
    unfold Pipeline.unscopedRest
    exact bigSep_congr fun b hb => by rw [hrest b (Finset.mem_sdiff.mp hb).2]
  rw [unscopedBufs1_split, arrBufs1_eq, arrays1_eq, er]
  dsimp only
  rw [e0, e1, e2, e3, h4]
  iintro ⟨⟨H0l, H0r, H1l, H1r, H2⟩, Hrest⟩
  isplitr [Hrest]
  · isplitl [H0l H0r]
    · iapply (pointsTo_share (PosShare.mem_left_op_right fullShare)).2
      isplitl [H0l]; · iexact H0l
      iexact H0r
    isplitl [H1l H1r]
    · iapply (pointsTo_share (PosShare.mem_left_op_right fullShare)).2
      isplitl [H1l]; · iexact H1l
      iexact H1r
    iexact H2
  iexact Hrest

end Cert.Kernel.Hand

end
-- ==== Proof.Kernel.Run.lean ====
/-
  The whole program's run: its two kernel regions and the closing reshape, from the launch to the return.

  Between items a core holds every unscoped buffer whole at a known valuation: W0 (the launch memory); W1 (after the
  first region: its two result arrays at what its sixteen write-backs leave, everything else as launched); W2 (after
  the second region: the 1 × 1 result array at what the last point wrote back); W3 (after the reshape of that block to
  a scalar). Beside the buffers rides the core's generator register at some state and the fact that it owes nothing.
  Every weakly fair execution terminates, and the final memory holds every unscoped buffer at W3: in particular the
  argument array as launched and the scalar result at the reshape of the second region's output.
-/
import proofs.«142804_j77936476553589_1_alg».proof.Proof.Gen.Kernel.Launch
import proofs.«142804_j77936476553589_1_alg».proof.Proof.Gen.Kernel.Skeleton
import proofs.«142804_j77936476553589_1_alg».proof.Proof.Gen.Kernel.Points
import proofs.«142804_j77936476553589_1_alg».proof.Proof.Gen.Kernel.Regions
import proofs.«142804_j77936476553589_1_alg».proof.Proof.Kernel.R0
import proofs.«142804_j77936476553589_1_alg».proof.Proof.Kernel.Shared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- The same read at the TensorCore's references: what the first region is entered from. -/
abbrev E0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region is entered from. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the second region: its output array at what the last point wrote back, every other buffer as entered. -/
def W2 (c : Dev nD) : Valuation τ sig (Elt F) :=
  Function.update (W1 m c) (Proc.devRef .tc main_v1) ((dat1 (E1 m) c).arrAt 4 cfg1.N)
abbrev E2 : (c : Dev nD) → (b : Ref sig .tc) → Buf (Elt F) ((c : Thread nD τ).loc b) := fun c b => W2 m c b
theorem W2_v1 (c : Dev nD) : (dat1 (E1 m) c).arrAt 4 cfg1.N = E2 m c main_v1 := by
  show _ = W2 m c (Proc.devRef .tc main_v1)
  unfold W2; exact (Function.update_self (Proc.devRef .tc main_v1 : DevRef τ sig) _ (W1 m c)).symm
theorem W2_of_ne (c : Dev nD) (b : Ref sig .tc) (hb : b ≠ main_v1) : E2 m c b = E1 m c b := by
  show W2 m c (Proc.devRef .tc b) = W1 m c (Proc.devRef .tc b)
  unfold W2; exact Function.update_of_ne (StableHlo.devRef_ne_of_ne hb) _ _

/-- After the closing reshape. -/
abbrev W3 : Dev nD → Valuation τ sig (Elt F) := fun c => StableHlo.after hostOps2 (W2 m c)

/-- The argument array reaches the end as launched: the reshape does not write it, the second region does not stage
    it, the first region only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := W2_of_ne m c main_arg0 (by decide)
    _ = W0 m c (Proc.devRef .tc main_arg0) := (W1_arr m c 0).trans (((dat0 (E0 m) c).arrAt_in 0 rfl _).trans (A_eq0 (E0 m) c 0))
    _ = m ((c : Thread nD τ).loc main_arg0) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The last thread state without what is owed. -/
abbrev Tₙ (c : Dev nD) : sProp 𝕄 := iprop(StableHlo.held (c : Thread nD τ) (Pipeline.ucRefs τ sig) (W3 m c) ∗ ∃ r, prngReg c r)

/-- The closing reshape as a segment over the unscoped buffers from W2. -/
abbrev seg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-! ## The regions as segments -/

set_option backward.isDefEq.respectTransparency.types false in
/-- The first region over the thread state: entered from every unscoped buffer at W0, left at W1. Its three arrays are
    distinct buffers, split out of the unscoped buffers at entry and put back at their final contents at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W1, left at W2. Two of its arrays
    are each read through two windows: they are halved at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays1_of_unscopedBufs (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (E1 m) c (E2 m c) (W2_v1 m c)
      (W2_of_ne m c main_v0_0 (by decide)) (W2_of_ne m c main_v0_1 (by decide))
      (fun b hb => W2_of_ne m c b fun e => hb (Finset.mem_image.mpr ⟨4, Finset.mem_univ _, e.symm⟩))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The program's three items in order: the two regions, then the reshape. -/
abbrev segs : List (Pipeline.Seg (pcfgs (F := F)) adm (pdats m) () defs₀ 𝒱₀ L lv) :=
  [ .region (reg0 m), .region (reg1 m), .host (seg2 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer at the last valuation W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to the end, nothing faulting, and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_all m ρ)

/-- THE RUN WITH ITS RESULT: besides, the scalar result ends at the last valuation's contents. -/
theorem run_result : θ_run defs (onTc (τ := τ) (main (F := F))) ⟨m, fun _ => 0, ρ⟩ (fun r => ∀ c : Dev nD,
      r.2.mem ((c.tc : Thread nD τ).loc main_v2) = W3 m c (Proc.devRef .tc main_v2)
      ∧ r.2.mem ((c.tc : Thread nD τ).loc main_arg0) = m ((c.tc : Thread nD τ).loc main_arg0)) :=
  (θ_run defs _ _).mono (fun _ h c => ⟨h c _ (mem_uc main_v2 (by decide)),
    (h c _ (mem_uc main_arg0 (by decide))).trans (W3_main_arg0 m c)⟩) (run_all m ρ)

end Cert.Kernel.Hand

end
-- ==== Proof.KernelIdeal.R0.lean ====
/-
  The first kernel region (row normalization), at the buffer contents V it is entered from.

  The grid has 16 points; point t stages rows [512 t, 512 t + 512) of the argument (window 0, all 1024 columns) and
  writes back the same rows of the two results: the normalized rows (window 1) and, per row, the sum of squares of
  the normalized row (window 2, one column). The body reads its input block whole and stores each output block whole,
  so what it leaves in an output's staging buffer is one function of the input block: the body's store payloads.
  Nothing here depends on the element instance.
-/
import proofs.«142804_j77936476553589_1_alg».proof.Proof.Gen.KernelIdeal.Launch
import proofs.«142804_j77936476553589_1_alg».proof.Proof.Gen.KernelIdeal.Skeleton
import proofs.«142804_j77936476553589_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is V's and
    whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S512x1 := Rect.unit (s := S512x1) ![0, 0] S512x1.size inb_S512x1_S512x1_0_0

/-! ## What the body leaves in each output window's buffer -/

/-- The normalized rows' buffer after the body: its one store, of the whole block. -/
def out0_1 (x0 : Vec F S512x1024 .f32) : Vec F S512x1024 .bf16 :=
  View.canon [⟨r0_0, k0_pay2 (View.ld x0 r0_0)⟩]

/-- The per-row sums' buffer after the body: its one store, of the whole block. -/
def out0_2 (x0 : Vec F S512x1024 .f32) : Vec F S512x1 .f32 :=
  View.canon [⟨r0_1, k0_pay3 (View.ld x0 r0_0)⟩]

theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The body on whole staging memrefs — the input's at contents x0, the outputs' at anything — runs to the continuation
    holding the input's as it was and each output's at its function of x0. -/
theorem sound_kernel0 (c : Dev nD) (E : Set ℕ) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S512x1 .f32) (harg3 : arg3.IsWhole)
    (x0 : Vec F S512x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of the first pipeline on core c: the arrays as the region finds them; after the body at point t the
    input's buffer at its block and each output's at its function of the input block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.R1Base.lean ====
/-
  The second kernel region (pairwise distances, accumulated), at the buffer contents V it is entered from: what its
  body's run and its proof data are stated over.

  The grid is 4 × 4, walked row by row: point t is tile (i, j) = (t / 4, t % 4). It stages rows
  [1024 i, 1024 i + 1024) of the normalized array (window 0: the left rows) and of the column of squared norms
  (window 2), rows [1024 (4 + j), 1024 (4 + j) + 1024) of the same two arrays (windows 1 and 3: the right rows), and
  one 1 × 1 output block (window 4) that every point revisits and only the last point writes back. The body resets
  the output block at the first point only (its one conditional), then adds the tile's sum to it.
-/
import proofs.«142804_j77936476553589_1_alg».proof.Proof.Gen.KernelIdeal.Launch
import proofs.«142804_j77936476553589_1_alg».proof.Proof.Gen.KernelIdeal.Skeleton
import proofs.«142804_j77936476553589_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at point t, each at its literal type: left rows, right rows, left norms, right norms. -/
abbrev lblk (c : Dev nD) (t : Fin cfg1.N) : Vec F S1024x1024 .bf16 := iblk1 V c 0 t
abbrev rblk (c : Dev nD) (t : Fin cfg1.N) : Vec F S1024x1024 .bf16 := iblk1 V c 1 t
abbrev lsq (c : Dev nD) (t : Fin cfg1.N) : Vec F S1024x1 .f32 := iblk1 V c 2 t
abbrev rsq (c : Dev nD) (t : Fin cfg1.N) : Vec F S1024x1 .f32 := iblk1 V c 3 t

/-- An input window's current staging buffer holds its block at every point, fetched there or not (where it is not
    fetched its block index has not moved), for any proof data whose array is V's and whose body leaves the block in
    place: the window is uncut and never idle. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: both coordinates are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only: decided over the sixteen points. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The staging memrefs as the pipeline passes them -/

/-- The output window's one staging buffer, through which its contents are stated. -/
abbrev VO1_4 : View sig .tc .vmem S1x1 .f32 := (Memref.whole cc1_stg4_0 : Memref sig .tc .vmem S1x1 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- The body's accesses of the output block: the block whole. -/
abbrev r1_4 : Rect S1x1 := Rect.unit (s := S1x1) ![0, 0] S1x1.size inb_S1x1_S1x1_0_0

end Cert.KernelIdeal.Hand

end
-- ==== Proof.KernelIdeal.R1.lean ====
/-
  The second kernel region's proof data and body obligation: the body's run in each of its two control cases (the
  reset taken at the first point only), what each leaves in the output block, the contents point by point, and the
  obligation at a generic point.
-/
import proofs.«142804_j77936476553589_1_alg».proof.Proof.Gen.KernelIdeal.Launch
import proofs.«142804_j77936476553589_1_alg».proof.Proof.Gen.KernelIdeal.Skeleton
import proofs.«142804_j77936476553589_1_alg».proof.Proof.Gen.KernelIdeal.Points
import proofs.«142804_j77936476553589_1_alg».proof.Proof.KernelIdeal.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run, case by case -/

set_option maxHeartbeats 1000000 in
/-- The body at the first point (the conditional taken). On whole staging memrefs, the four inputs' at their contents and
    the output's at anything, it runs to the continuation holding the inputs' as they were and the output's buffer with
    the listed pieces written (last first): the reset store, then the accumulating store over what the reset left. -/
noncomputable def kernelRun1_A (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : cond1_0 i)
    (x0 : Vec F S1024x1024 .bf16) (x1 : Vec F S1024x1024 .bf16) (x2 : Vec F S1024x1 .f32) (x3 : Vec F S1024x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc1__tpc_kernel i arg2 harg2 arg3 harg3 arg4 harg4 arg5 harg5 arg6 harg6) K } := by
  refine ⟨?_, fun E K => ?run⟩
  case run =>
    simp only [cc1__tpc_kernel_eq_skeleton]; unfold cc1__tpc_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The body at a later point (the conditional not taken). On whole staging memrefs, the four inputs' at their contents
    and the output's at its running contents, it runs to the continuation holding the inputs' as they were and the
    output's buffer with the listed pieces written: the one accumulating store over the running contents. -/
noncomputable def kernelRun1_B (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : ¬cond1_0 i)
    (x0 : Vec F S1024x1024 .bf16) (x1 : Vec F S1024x1024 .bf16) (x2 : Vec F S1024x1 .f32) (x3 : Vec F S1024x1 .f32)
    (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc1__tpc_kernel i arg2 harg2 arg3 harg3 arg4 harg4 arg5 harg5 arg6 harg6) K } := by
  refine ⟨?_, fun E K => ?run⟩
  case run =>
    simp only [cc1__tpc_kernel_eq_skeleton]; unfold cc1__tpc_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What each case leaves in the output block's buffer -/

/-- The first case's pieces tile the output block, so they cover it. -/
theorem cover1_A_4 (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : cond1_0 i)
    (x0 : Vec F S1024x1024 .bf16) (x1 : Vec F S1024x1024 .bf16) (x2 : Vec F S1024x1 .f32) (x3 : Vec F S1024x1 .f32) (y : S1x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1x1.size (by sl_kernel_rfl) y

/-- What the first case leaves in the output block's buffer: its pieces read back. -/
def out1_A_4 (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : cond1_0 i)
    (x0 : Vec F S1024x1024 .bf16) (x1 : Vec F S1024x1024 .bf16) (x2 : Vec F S1024x1 .f32) (x3 : Vec F S1024x1 .f32) : Vec F S1x1 .f32 :=
  VO1_4.read (Elt F) (VO1_4.writes (Elt F) VO1_4.junk (kernelRun1_A c i arg2 harg2 arg3 harg3 arg4 harg4 arg5 harg5 arg6 harg6 hc0 x0 x1 x2 x3).1)

/-- The later case's one piece tiles the output block, so it covers it. -/
theorem cover1_B_4 (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : ¬cond1_0 i)
    (x0 : Vec F S1024x1024 .bf16) (x1 : Vec F S1024x1024 .bf16) (x2 : Vec F S1024x1 .f32) (x3 : Vec F S1024x1 .f32) (xo4 : Vec F S1x1 .f32) (y : S1x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1.size (by sl_kernel_rfl) y

/-- What the later case leaves in the output block's buffer: its piece read back. -/
def out1_B_4 (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : ¬cond1_0 i)
    (x0 : Vec F S1024x1024 .bf16) (x1 : Vec F S1024x1024 .bf16) (x2 : Vec F S1024x1 .f32) (x3 : Vec F S1024x1 .f32) (xo4 : Vec F S1x1 .f32) : Vec F S1x1 .f32 :=
  VO1_4.read (Elt F) (VO1_4.writes (Elt F) VO1_4.junk (kernelRun1_B c i arg2 harg2 arg3 harg3 arg4 harg4 arg5 harg5 arg6 harg6 hc0 x0 x1 x2 x3 xo4).1)

/-- The zero offsets of a whole-block access, as a constant function. -/
theorem hz1 : (![0, 0] : Fin 2 → Nat) = fun _ => 0 := funext fun a => by fin_cases a <;> rfl

/-- The first case leaves the accumulating payload of the four input blocks over the reset payload: the accumulating
    store is the last and covers the block; the output it loads is what the reset store left. -/
theorem out1_A_4_eq (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : cond1_0 i)
    (x0 : Vec F S1024x1024 .bf16) (x1 : Vec F S1024x1024 .bf16) (x2 : Vec F S1024x1 .f32) (x3 : Vec F S1024x1 .f32) :
    out1_A_4 c i arg2 harg2 arg3 harg3 arg4 harg4 arg5 harg5 arg6 harg6 hc0 x0 x1 x2 x3 = k1_pay2 x0 x1 x2 x3 (k1_pay1 (F := F)) := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S1x1) hz1, View.readCov_unit_zero (S := S1x1) _ hz1]
  simp only [View.readAt_eq_ld, harg2.read_unread, harg3.read_unread, harg4.read_unread, harg5.read_unread,
    View.ld_unit_zero (S := S1024x1024) hz1, View.ld_unit_zero (S := S1024x1) hz1]

/-- The later case leaves the accumulating payload of the four input blocks over the running contents: its one store
    covers the block, and its loads read the whole buffers. -/
theorem out1_B_4_eq (c : Dev nD) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1x1 .f32) (harg6 : arg6.IsWhole) (hc0 : ¬cond1_0 i)
    (x0 : Vec F S1024x1024 .bf16) (x1 : Vec F S1024x1024 .bf16) (x2 : Vec F S1024x1 .f32) (x3 : Vec F S1024x1 .f32) (xo4 : Vec F S1x1 .f32) :
    out1_B_4 c i arg2 harg2 arg3 harg3 arg4 harg4 arg5 harg5 arg6 harg6 hc0 x0 x1 x2 x3 xo4 = k1_pay2 x0 x1 x2 x3 xo4 := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero hz1]
  simp only [View.readAt_eq_ld, harg2.read_unread, harg3.read_unread, harg4.read_unread, harg5.read_unread, harg6.read_unread,
    View.ld_unit_zero (S := S1024x1024) hz1, View.ld_unit_zero (S := S1024x1) hz1, View.ld_unit_zero (S := S1x1) hz1]

/-! ## What the output block's buffer holds after each point -/

/-- No point after the first meets the body's condition. -/
theorem not_cond1_succ (n : ℕ) (hn : n + 1 < cfg1.N) : ¬cond1_0 (grid1.coords ⟨n + 1, hn⟩) := fun h => by
  have h1 := (hcond1_0 ⟨n + 1, hn⟩).mp h
  have hN : n + 1 < 16 := lt_of_lt_of_eq hn (show cfg1.N = 16 from N_1)
  dsimp only at h1; omega

/-- What the output block's staging buffer holds after the body at position n. -/
def outsAt1 (c : Dev nD) : (n : ℕ) → n < cfg1.N → Vec F S1x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (lblk V c ⟨0, hn⟩) (rblk V c ⟨0, hn⟩) (lsq V c ⟨0, hn⟩) (rsq V c ⟨0, hn⟩)
  | n + 1, hn => out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (not_cond1_succ n hn) (lblk V c ⟨n + 1, hn⟩) (rblk V c ⟨n + 1, hn⟩) (lsq V c ⟨n + 1, hn⟩) (rsq V c ⟨n + 1, hn⟩) (outsAt1 c n (Nat.lt_of_succ_lt hn))

/-- At the first point: the accumulating payload over the reset payload. -/
theorem outsAt1_zero (c : Dev nD) (h : 0 < cfg1.N) :
    outsAt1 V c 0 h = k1_pay2 (lblk V c ⟨0, h⟩) (rblk V c ⟨0, h⟩) (lsq V c ⟨0, h⟩) (rsq V c ⟨0, h⟩) (k1_pay1 (F := F)) :=
  out1_A_4_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr (Nat.zero_mod _)) (lblk V c ⟨0, h⟩) (rblk V c ⟨0, h⟩) (lsq V c ⟨0, h⟩) (rsq V c ⟨0, h⟩)

/-- At a later point: the accumulating payload over what the point before left. -/
theorem outsAt1_succ (c : Dev nD) (n : ℕ) (h : n + 1 < cfg1.N) :
    outsAt1 V c (n + 1) h = k1_pay2 (lblk V c ⟨n + 1, h⟩) (rblk V c ⟨n + 1, h⟩) (lsq V c ⟨n + 1, h⟩) (rsq V c ⟨n + 1, h⟩) (outsAt1 V c n (Nat.lt_of_succ_lt h)) :=
  out1_B_4_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (not_cond1_succ n h) (lblk V c ⟨n + 1, h⟩) (rblk V c ⟨n + 1, h⟩) (lsq V c ⟨n + 1, h⟩) (rsq V c ⟨n + 1, h⟩) (outsAt1 V c n (Nat.lt_of_succ_lt h))

/-- At the point the condition holds at: the first case's contents. -/
theorem outsAt1_A (c : Dev nD) (t : Fin cfg1.N) (h0 : t.val % 16 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (lblk V c t) (rblk V c t) (lsq V c t) (rsq V c t) := by
  obtain ⟨n, hn⟩ := t
  cases n with
  | zero => exact rfl
  | succ n =>
    exfalso
    have hN : n + 1 < 16 := lt_of_lt_of_eq hn (show cfg1.N = 16 from N_1)
    dsimp only at h0; omega

/-- At a point it does not hold at: the later case's contents, over what the point before left. -/
theorem outsAt1_B (c : Dev nD) (t : Fin cfg1.N) (h0 : ¬t.val % 16 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (lblk V c t) (rblk V c t) (lsq V c t) (rsq V c t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the second pipeline on core c. The two pairs of input windows that read one array hold it at
    complementary half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the output window's staging buffer holds what the body left at the point before: the point is
    not the first, the buffer is written back at the last point only, and the window is live and uncut. -/
theorem before1_4_B (c : Dev nD) (t : Fin cfg1.N) (h0 : ¬t.val % 16 = 0) (d) :
    (dat1 V c).before 4 t d = outsAt1 V c (t.val - 1) (Nat.lt_of_le_of_lt (Nat.sub_le _ _) t.isLt) := by
  have hN : t.val < 16 := lt_of_lt_of_eq t.isLt (show cfg1.N = 16 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the closed form of the condition says which case the
    point is in; at a later point the output's memref holds what the point before left; so that case's run applies.
    The invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 16 := lt_of_lt_of_eq t.isLt (show cfg1.N = 16 from N_1)
  by_cases h0 : t.val % 16 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (lblk V c t) (rblk V c t) (lsq V c t) (rsq V c t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (lblk V c t) (rblk V c t) (lsq V c t) (rsq V c t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Shared1.lean ====
/-
  The second kernel region reads each of its two input arrays through TWO windows (left rows and right rows). The
  core holds each such array whole; at the region's entry the array's ownership is halved, one half per window, and at
  its exit the halves — both at the array's unchanged contents — are joined again. The output array (one 1 × 1 block)
  is held whole throughout.
-/
import proofs.«142804_j77936476553589_1_alg».proof.Proof.Gen.KernelIdeal.Launch
import proofs.«142804_j77936476553589_1_alg».proof.Proof.Gen.KernelIdeal.Skeleton
import proofs.«142804_j77936476553589_1_alg».proof.Proof.Gen.KernelIdeal.Points
import proofs.«142804_j77936476553589_1_alg».proof.Proof.KernelIdeal.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three distinct buffers behind the region's five windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_0) ↦{fullShare} W main_v0_0) ∗ (((c : Thread nD τ).loc main_v0_1) ↦{fullShare} W main_v0_1)
          ∗ (((c : Thread nD τ).loc main_v1) ↦{fullShare} W main_v1)) := by
  unfold Pipeline.arrBufs
  exact bigSep_eq_bigSepL_of_eq [main_v0_0, main_v0_1, main_v1] (by decide) (by decide) _

/-- The pipeline's arrays at contents G, window by window: the two halves of each input array, the output array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_0) ↦{fullShare.left} G 0) ∗ (((c : Thread nD τ).loc main_v0_0) ↦{fullShare.right} G 1)
          ∗ (((c : Thread nD τ).loc main_v0_1) ↦{fullShare.left} G 2) ∗ (((c : Thread nD τ).loc main_v0_1) ↦{fullShare.right} G 3)
          ∗ (((c : Thread nD τ).loc main_v1) ↦{fullShare} G 4)) := by
  unfold Dat.arrays
  rw [bigSep_W1]
  rw [(arr_whole1 0).set_eq_univ, (arr_whole1 2).set_eq_univ, (arr_whole1 4).set_eq_univ]
  rfl

/-- A core's unscoped buffers are the buffers behind this region's arrays and the rest. -/
theorem unscopedBufs1_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec1 c W
          ∗ Pipeline.unscopedRest (Ix := Unit) (Name := ℕ) (U := UR sig nD τ) (Lvl := ℕ) spec1 c W) :=
  Pipeline.unscopedBufs_split₀ cfgs 1 winFacts₀1.arr_unscoped c W

/-- ENTRY. The core's unscoped buffers at the contents the region is entered from are the pipeline's arrays at their
    entry contents — each shared input array halved between its two windows — and the unscoped rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscopedBufs1_split, arrBufs1_eq, arrays1_eq]
  iintro ⟨⟨H0, H1, H2⟩, Hrest⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitr [Hrest]
  · isplitl [H0l]; · iexact H0l
    isplitl [H0r]; · iexact H0r
    isplitl [H1l]; · iexact H1l
    isplitl [H1r]; · iexact H1r
    iexact H2
  iexact Hrest

/-- EXIT. The pipeline's arrays after the last point — the input arrays' halves at their unchanged contents, the output
    array at what the last point wrote back — and the unscoped rest are the core's unscoped buffers at any contents W'
    that hold the output array's final contents and agree with the entry contents everywhere else. -/
theorem unscopedBufs_of_arrays1 (c : Dev nD) (W' : (b : Ref sig .tc) → Buf (Elt F) ((c : Thread nD τ).loc b))
    (h4 : (dat1 V c).arrAt 4 cfg1.N = W' main_v1)
    (h0 : W' main_v0_0 = V c main_v0_0) (h1 : W' main_v0_1 = V c main_v0_1)
    (hrest : ∀ b, b ∉ Finset.univ.image (Pipeline.arrRef spec1) → W' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c W' : sProp 𝕄) := by
  have e0 : (dat1 V c).arrAt 0 cfg1.N = W' main_v0_0 := ((dat1 V c).arrAt_in 0 rfl _).trans ((A_eq1 V c 0).trans h0.symm)
  have e1 : (dat1 V c).arrAt 1 cfg1.N = W' main_v0_0 := ((dat1 V c).arrAt_in 1 rfl _).trans ((A_eq1 V c 1).trans h0.symm)
  have e2 : (dat1 V c).arrAt 2 cfg1.N = W' main_v0_1 := ((dat1 V c).arrAt_in 2 rfl _).trans ((A_eq1 V c 2).trans h1.symm)
  have e3 : (dat1 V c).arrAt 3 cfg1.N = W' main_v0_1 := ((dat1 V c).arrAt_in 3 rfl _).trans ((A_eq1 V c 3).trans h1.symm)
  have er : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c W' := by
    unfold Pipeline.unscopedRest
    exact bigSep_congr fun b hb => by rw [hrest b (Finset.mem_sdiff.mp hb).2]
  rw [unscopedBufs1_split, arrBufs1_eq, arrays1_eq, er]
  dsimp only
  rw [e0, e1, e2, e3, h4]
  iintro ⟨⟨H0l, H0r, H1l, H1r, H2⟩, Hrest⟩
  isplitr [Hrest]
  · isplitl [H0l H0r]
    · iapply (pointsTo_share (PosShare.mem_left_op_right fullShare)).2
      isplitl [H0l]; · iexact H0l
      iexact H0r
    isplitl [H1l H1r]
    · iapply (pointsTo_share (PosShare.mem_left_op_right fullShare)).2
      isplitl [H1l]; · iexact H1l
      iexact H1r
    iexact H2
  iexact Hrest

end Cert.KernelIdeal.Hand

end
-- ==== Proof.KernelIdeal.Run.lean ====
/-
  The whole program's run: its two kernel regions and the closing reshape, from the launch to the return.

  Between items a core holds every unscoped buffer whole at a known valuation: W0 (the launch memory); W1 (after the
  first region: its two result arrays at what its sixteen write-backs leave, everything else as launched); W2 (after
  the second region: the 1 × 1 result array at what the last point wrote back); W3 (after the reshape of that block to
  a scalar). Beside the buffers rides the core's generator register at some state and the fact that it owes nothing.
  Every weakly fair execution terminates, and the final memory holds every unscoped buffer at W3: in particular the
  argument array as launched and the scalar result at the reshape of the second region's output.
-/
import proofs.«142804_j77936476553589_1_alg».proof.Proof.Gen.KernelIdeal.Launch
import proofs.«142804_j77936476553589_1_alg».proof.Proof.Gen.KernelIdeal.Skeleton
import proofs.«142804_j77936476553589_1_alg».proof.Proof.Gen.KernelIdeal.Points
import proofs.«142804_j77936476553589_1_alg».proof.Proof.Gen.KernelIdeal.Regions
import proofs.«142804_j77936476553589_1_alg».proof.Proof.KernelIdeal.R0
import proofs.«142804_j77936476553589_1_alg».proof.Proof.KernelIdeal.Shared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- The same read at the TensorCore's references: what the first region is entered from. -/
abbrev E0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region is entered from. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the second region: its output array at what the last point wrote back, every other buffer as entered. -/
def W2 (c : Dev nD) : Valuation τ sig (Elt F) :=
  Function.update (W1 m c) (Proc.devRef .tc main_v1) ((dat1 (E1 m) c).arrAt 4 cfg1.N)
abbrev E2 : (c : Dev nD) → (b : Ref sig .tc) → Buf (Elt F) ((c : Thread nD τ).loc b) := fun c b => W2 m c b
theorem W2_v1 (c : Dev nD) : (dat1 (E1 m) c).arrAt 4 cfg1.N = E2 m c main_v1 := by
  show _ = W2 m c (Proc.devRef .tc main_v1)
  unfold W2; exact (Function.update_self (Proc.devRef .tc main_v1 : DevRef τ sig) _ (W1 m c)).symm
theorem W2_of_ne (c : Dev nD) (b : Ref sig .tc) (hb : b ≠ main_v1) : E2 m c b = E1 m c b := by
  show W2 m c (Proc.devRef .tc b) = W1 m c (Proc.devRef .tc b)
  unfold W2; exact Function.update_of_ne (StableHlo.devRef_ne_of_ne hb) _ _

/-- After the closing reshape. -/
abbrev W3 : Dev nD → Valuation τ sig (Elt F) := fun c => StableHlo.after hostOps2 (W2 m c)

/-- The argument array reaches the end as launched: the reshape does not write it, the second region does not stage
    it, the first region only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := W2_of_ne m c main_arg0 (by decide)
    _ = W0 m c (Proc.devRef .tc main_arg0) := (W1_arr m c 0).trans (((dat0 (E0 m) c).arrAt_in 0 rfl _).trans (A_eq0 (E0 m) c 0))
    _ = m ((c : Thread nD τ).loc main_arg0) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The last thread state without what is owed. -/
abbrev Tₙ (c : Dev nD) : sProp 𝕄 := iprop(StableHlo.held (c : Thread nD τ) (Pipeline.ucRefs τ sig) (W3 m c) ∗ ∃ r, prngReg c r)

/-- The closing reshape as a segment over the unscoped buffers from W2. -/
abbrev seg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-! ## The regions as segments -/

set_option backward.isDefEq.respectTransparency.types false in
/-- The first region over the thread state: entered from every unscoped buffer at W0, left at W1. Its three arrays are
    distinct buffers, split out of the unscoped buffers at entry and put back at their final contents at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W1, left at W2. Two of its arrays
    are each read through two windows: they are halved at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays1_of_unscopedBufs (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (E1 m) c (E2 m c) (W2_v1 m c)
      (W2_of_ne m c main_v0_0 (by decide)) (W2_of_ne m c main_v0_1 (by decide))
      (fun b hb => W2_of_ne m c b fun e => hb (Finset.mem_image.mpr ⟨4, Finset.mem_univ _, e.symm⟩))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The program's three items in order: the two regions, then the reshape. -/
abbrev segs : List (Pipeline.Seg (pcfgs (F := F)) adm (pdats m) () defs₀ 𝒱₀ L lv) :=
  [ .region (reg0 m), .region (reg1 m), .host (seg2 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer at the last valuation W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to the end, nothing faulting, and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_all m ρ)

/-- THE RUN WITH ITS RESULT: besides, the scalar result ends at the last valuation's contents. -/
theorem run_result : θ_run defs (onTc (τ := τ) (main (F := F))) ⟨m, fun _ => 0, ρ⟩ (fun r => ∀ c : Dev nD,
      r.2.mem ((c.tc : Thread nD τ).loc main_v2) = W3 m c (Proc.devRef .tc main_v2)
      ∧ r.2.mem ((c.tc : Thread nD τ).loc main_arg0) = m ((c.tc : Thread nD τ).loc main_arg0)) :=
  (θ_run defs _ _).mono (fun _ h c => ⟨h c _ (mem_uc main_v2 (by decide)),
    (h c _ (mem_uc main_arg0 (by decide))).trans (W3_main_arg0 m c)⟩) (run_all m ρ)

end Cert.KernelIdeal.Hand

end
-- ==== Proof.Spec.lean ====
/-
  The loss both programs compute, as ONE function of the argument array, index by index on the extended reals.

  The argument is an array x of 8192 rows of 1024 entries. Each row is divided by max(‖row‖₂, ε) (ε the float
  9.99999996e-13, read at its exact binary value): nf x r k. The first 4096 rows are the "left" half, the last 4096 the
  "right" half. For a left row a and a right row b the clamped squared distance is
      pair x a b = | max (sq a + sq b − 2 · ⟨nf a, nf b⟩) 0 |,    sq r = Σ_k (nf x r k)²,
  and the loss is the sum of pair over all 4096 × 4096 pairs (G). Every sum here is a finite sum in the extended reals,
  a commutative monoid under +, so the order and grouping of the summation do not matter.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The argument's shape: 8192 rows of 1024. -/
abbrev SX : Shape := ⟨2, ![8192, 1024]⟩
/-- An argument array at the ideal instance: an extended real per index. -/
abbrev X : Type := SX.Idx → EReal

/-- ε, the clamp under the row norm: the float 9.99999996e-13 at its exact binary value. -/
def eps : EReal := Ideal.ofBits .f32 0x2B8CBCCC#32
/-- The factor 2 of the cross term. -/
def two : EReal := Ideal.ofBits .f32 0x40000000#32

/-- Σ_k x[r,k]²: a row's sum of squares. -/
def ssq (x : X) (r : Fin 8192) : EReal := ∑ k : Fin 1024, x (ix2 r k) * x (ix2 r k)
/-- max(‖row r‖₂, ε): what row r is divided by. -/
def den (x : X) (r : Fin 8192) : EReal := max (Ideal.sqrt (ssq x r)) eps
/-- The normalized entry x[r,k] / max(‖row r‖₂, ε). -/
def nf (x : X) (r : Fin 8192) (k : Fin 1024) : EReal := Ideal.div (x (ix2 r k)) (den x r)
/-- Σ_k nf[r,k]²: the squared norm of the normalized row. -/
def sq (x : X) (r : Fin 8192) : EReal := ∑ k : Fin 1024, nf x r k * nf x r k
/-- ⟨nf a, nf b⟩: the inner product of two normalized rows. -/
def dot (x : X) (a b : Fin 8192) : EReal := ∑ k : Fin 1024, nf x a k * nf x b k
/-- max(sq a + sq b − 2⟨nf a, nf b⟩, 0): the squared distance of rows a and b, clamped at 0. -/
def d2 (x : X) (a b : Fin 8192) : EReal := max (sq x a + sq x b - two * dot x a b) 0
/-- |d2|, as the maximum of a value and its negation. -/
def pair (x : X) (a b : Fin 8192) : EReal := max (d2 x a b) (-(d2 x a b))

/-- Left row a, a < 4096, as a row of the argument. -/
def lo (a : Fin 4096) : Fin 8192 := ⟨a.val, by omega⟩
/-- Right row b, b < 4096, as a row of the argument: row 4096 + b. -/
def hi (b : Fin 4096) : Fin 8192 := ⟨4096 + b.val, by omega⟩

/-- THE RESULT: the sum of the clamped squared distances over all pairs (left row, right row). -/
def G (x : X) : EReal := ∑ a : Fin 4096, ∑ b : Fin 4096, pair x (lo a) (hi b)

/-- Row p of the i-th block of 1024 left rows. -/
def loT (i : Fin 4) (p : Fin 1024) : Fin 4096 := ⟨i.val * 1024 + p.val, by omega⟩
/-- One 1024 × 1024 tile's share of the result: left rows of block i against right rows of block j. -/
def tile (x : X) (i j : Fin 4) : EReal := ∑ p : Fin 1024, ∑ q : Fin 1024, pair x (lo (loT i p)) (hi (loT j q))

/-- The running total after grid point n of the 4 × 4 grid of tiles walked row by row (point n is tile (n / 4, n % 4)):
    the first point starts from 0, every later point adds its tile to what the point before left. -/
def acc (x : X) : ℕ → EReal
  | 0 => 0 + tile x ⟨0, by omega⟩ ⟨0, by omega⟩
  | n + 1 => acc x n + tile x ⟨(n + 1) / 4 % 4, Nat.mod_lt _ (by omega)⟩ ⟨(n + 1) % 4, Nat.mod_lt _ (by omega)⟩

end Cert.Spec

end
-- ==== Proof.SpecArr.lean ====
/-
  The two intermediate arrays of the kernel's program as whole-array functions of the argument array x: the
  normalized rows NF x (8192 × 1024) and the per-row squared norms of the normalized rows SQ x (8192 × 1).
-/
import proofs.«142804_j77936476553589_1_alg».proof.Proof.Spec

noncomputable section

namespace Cert.Spec

open Idealize.ShloMosaic

/-- The shape of the per-row column: 8192 rows of one entry. -/
abbrev SC : Shape := ⟨2, ![8192, 1]⟩

/-- The normalized rows: entry (r, k) is nf x r k. -/
def NF (x : X) : SX.Idx → EReal := fun j => nf x ⟨(j 0).val, (j 0).isLt⟩ ⟨(j 1).val, (j 1).isLt⟩

/-- The squared norms of the normalized rows, kept as a column: entry (r, 0) is sq x r. -/
def SQ (x : X) : SC.Idx → EReal := fun j => sq x ⟨(j 0).val, (j 0).isLt⟩

/-- One pair's term from its three ingredients: |max (a + b − 2 d) 0| for squared norms a, b and inner product d. -/
def pairOf (a b d : EReal) : EReal := max (max (a + b - two * d) 0) (-(max (a + b - two * d) 0))

theorem pair_eq (x : X) (a b : Fin 8192) : pair x a b = pairOf (sq x a) (sq x b) (dot x a b) := rfl

end Cert.Spec

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.KernelIdeal.V0.lean ====
/-
  What the first kernel region leaves in its two result arrays, at the ideal instance: the normalized rows and the
  column of their squared norms, each one whole-array function of the argument array.

  The body divides every entry of its 512 × 1024 block by max(‖row‖₂, ε), the row's sum of squares being kept as a
  column through the square root and the clamp and then laid across the 1024 lanes; it stores that block (the change
  of float format is the identity on the extended reals) and, per row, the sum of the squares of the divided row.
  Point t's block is rows 512 t … 512 t + 511 of the argument, and both stores go back to the same rows of the
  results; the sixteen points' rows tile the 8192 rows, so each result array ends as one function of the argument.
-/
import proofs.«142804_j77936476553589_1_alg».proof.Proof.KernelIdeal.R0
import proofs.«142804_j77936476553589_1_alg».proof.Proof.SpecArr
import proofs.«142804_j77936476553589_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an entry -/

/-- The lane sum of a 512 × 1024 block, at row p: the sum of the row's 1024 entries. -/
theorem rowsum512_apply (v : FVec Ideal S512x1024 .f32) (p : Fin 512) :
    multiReduction (F := Ideal) .add [1] S512 v 0x00000000#32 reduces_S512x1024_S512 (.inl rfl) rfl (ix1 p)
      = ∑ k : Fin 1024, v (ix2 p k) := by
  refine (Ideal.multiReduction_add_single v _ reduces_S512x1024_S512 (.inl rfl) rfl (ix1 p)).trans ?_
  show ∑ k : Fin 1024, v (reduces_S512x1024_S512.lift (ix1 p) k) = _
  refine Finset.sum_congr rfl fun k _ => congrArg v ?_
  funext c
  match c with
  | ⟨0, _⟩ => rfl
  | ⟨1, _⟩ => rfl

/-- The divided block at entry (p, k): the entry over max(‖row p‖₂, ε). The row's sum of squares is kept as a column,
    so the square root, the clamp and the broadcast across the lanes all act on row p's one value. -/
theorem norm_pay1_apply (x0 : Vec Ideal S512x1024 .f32) (p : Fin 512) (k : Fin 1024) :
    k0_pay1 (F := Ideal) x0 (ix2 p k)
      = Ideal.div (x0 (ix2 p k)) (max (Ideal.sqrt (∑ k' : Fin 1024, x0 (ix2 p k') * x0 (ix2 p k'))) Cert.Spec.eps) := by
  unfold k0_pay1
  refine congrArg (Ideal.div (x0 (ix2 p k))) ?_
  refine (Cert.LibColumn.broadcastTo_a1_ab_apply _ broadcasts_S512x1_S512x1024 p k).trans ?_
  refine congrArg (fun z => max (Ideal.sqrt z) Cert.Spec.eps) ?_
  refine (Cert.LibColumn.shapeCast_a_a1_apply _ shapeCasts_S512_S512x1 p 0).trans ?_
  exact rowsum512_apply (mulf x0 x0) p

/-- When row p of the block is row r of the array x, the divided block's row p is the normalized row r of x. -/
theorem pay1_row (x : Cert.Spec.X) (x0 : Vec Ideal S512x1024 .f32) (r : Fin 8192) (p : Fin 512)
    (hx : ∀ k : Fin 1024, x0 (ix2 p k) = x (ix2 r k)) (k : Fin 1024) :
    k0_pay1 (F := Ideal) x0 (ix2 p k) = Cert.Spec.nf x r k := by
  refine (norm_pay1_apply x0 p k).trans ?_
  unfold Cert.Spec.nf Cert.Spec.den Cert.Spec.ssq
  simp only [hx]

/-- The first store's payload: the change of float format is the identity on the extended reals. -/
theorem pay2_row (x : Cert.Spec.X) (x0 : Vec Ideal S512x1024 .f32) (r : Fin 8192) (p : Fin 512)
    (hx : ∀ k : Fin 1024, x0 (ix2 p k) = x (ix2 r k)) (k : Fin 1024) :
    k0_pay2 (F := Ideal) x0 (ix2 p k) = Cert.Spec.nf x r k := by
  unfold k0_pay2
  exact pay1_row x x0 r p hx k

/-- The second store's payload at row p: the sum of the squares of the normalized row r. -/
theorem pay3_row (x : Cert.Spec.X) (x0 : Vec Ideal S512x1024 .f32) (r : Fin 8192) (p : Fin 512)
    (hx : ∀ k : Fin 1024, x0 (ix2 p k) = x (ix2 r k)) :
    k0_pay3 (F := Ideal) x0 (ix2 p (0 : Fin 1)) = Cert.Spec.sq x r := by
  unfold k0_pay3
  refine (Cert.LibColumn.shapeCast_a_a1_apply _ shapeCasts_S512_S512x1 p 0).trans ?_
  refine (rowsum512_apply (mulf (k0_pay1 x0) (k0_pay1 x0)) p).trans ?_
  unfold Cert.Spec.sq
  refine Finset.sum_congr rfl fun k _ => ?_
  show k0_pay1 (F := Ideal) x0 (ix2 p k) * k0_pay1 (F := Ideal) x0 (ix2 p k) = _
  rw [pay1_row x x0 r p hx k]

/-! ## From the body's stores to the arrays -/

variable (V : (c : Dev nD) → (b : Ref sig .tc) → Buf (Elt Ideal) ((c : Thread nD τ).loc b))

/-- Both stores and the load start at the block's corner. -/
theorem zero_offsets : (![0, 0] : Fin 2 → Nat) = fun _ => 0 := funext fun a => by
  match a with
  | ⟨0, _⟩ => rfl
  | ⟨1, _⟩ => rfl

/-- The three index maps, decided over the sixteen points: point t is at block (t, 0) of each array. -/
theorem block_of_point : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of the input block at point t is row 512 t + p of the argument array. -/
theorem iblk0_apply (c : Dev nD) (t : Fin cfg0.N) (p : Fin 512) (k : Fin 1024) (r : Fin 8192) (hr : r.val = 512 * t.val + p.val) :
    (iblk0 (F := Ideal) V c 0 t : Vec Ideal S512x1024 .f32) (ix2 p k) = (V c main_arg0 : Cert.Spec.X) (ix2 r k) := by
  obtain ⟨e0, e1, -⟩ := block_of_point t
  unfold iblk0
  rw [View.read_apply]
  show V c main_arg0 _ = V c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- An entry of the first store's payload is the normalized entry of the array x at the place it is written back to,
    when the block's rows are rows 512 t … 512 t + 511 of x. -/
theorem nf_entry (x : Cert.Spec.X) (x0 : Vec Ideal S512x1024 .f32) (t : ℕ)
    (hx : ∀ (p : Fin 512) (k : Fin 1024) (r : Fin 8192), r.val = 512 * t + p.val → x0 (ix2 p k) = x (ix2 r k))
    (j : S512x1024.Idx) (i : Cert.Spec.SX.Idx) (hi0 : (i 0).val = 512 * t + (j 0).val) (hi1 : (i 1).val = (j 1).val) :
    k0_pay2 (F := Ideal) x0 j = Cert.Spec.NF x i := by
  obtain ⟨p, k, rfl⟩ : ∃ (p : Fin 512) (k : Fin 1024), j = ix2 p k := ⟨j 0, j 1, eq_ix2 j⟩
  have hk : k = (⟨(i 1).val, (i 1).isLt⟩ : Fin 1024) := Fin.ext hi1.symm
  exact (pay2_row x x0 ⟨(i 0).val, (i 0).isLt⟩ p (fun k' => hx p k' _ hi0) k).trans
    (congrArg (Cert.Spec.nf x ⟨(i 0).val, (i 0).isLt⟩) hk)

/-- Likewise an entry of the second store's payload is the squared norm of the normalized row it is written back to. -/
theorem sq_entry (x : Cert.Spec.X) (x0 : Vec Ideal S512x1024 .f32) (t : ℕ)
    (hx : ∀ (p : Fin 512) (k : Fin 1024) (r : Fin 8192), r.val = 512 * t + p.val → x0 (ix2 p k) = x (ix2 r k))
    (j : S512x1.Idx) (i : Cert.Spec.SC.Idx) (hi0 : (i 0).val = 512 * t + (j 0).val) :
    k0_pay3 (F := Ideal) x0 j = Cert.Spec.SQ x i := by
  obtain ⟨p, u, rfl⟩ : ∃ (p : Fin 512) (u : Fin 1), j = ix2 p u := ⟨j 0, j 1, eq_ix2 j⟩
  obtain rfl : u = 0 := Subsingleton.elim _ _
  exact pay3_row x x0 ⟨(i 0).val, (i 0).isLt⟩ p (fun k' => hx p k' _ hi0)

/-- What point t writes back to the first result is its block of the normalized rows of the argument array. -/
theorem flushed0_1_eq (c : Dev nD) (t : Fin cfg0.N) :
    (dat0 (F := Ideal) V c).flushed 1 t = ((cfg0.win 1).blk t).view.read (Elt Ideal) (Cert.Spec.NF (V c main_arg0)) := by
  show (cfg0.win 1).cut (grid0.coords t) ((dat0 V c).after 1 t) = _
  rw [after0_1]
  unfold out0_1
  rw [View.canon_unit_zero zero_offsets]
  simp only [View.ld_unit_zero (S := S512x1024) zero_offsets]
  obtain ⟨-, -, e0, e1, -⟩ := block_of_point t
  funext j
  refine nf_entry (V c main_arg0) (iblk0 V c 0 t) t.val (fun p k r hr => iblk0_apply V c t p k r hr) j _ ?_ ?_
  · show win0_1.index t (0 : Fin 2) * 512 + 1 * (j 0).val = 512 * t.val + (j 0).val; rw [e0]; omega
  · show win0_1.index t (1 : Fin 2) * 1024 + 1 * (j 1).val = (j 1).val; rw [e1]; omega

/-- and to the second its block of the column of their squared norms. -/
theorem flushed0_2_eq (c : Dev nD) (t : Fin cfg0.N) :
    (dat0 (F := Ideal) V c).flushed 2 t = ((cfg0.win 2).blk t).view.read (Elt Ideal) (Cert.Spec.SQ (V c main_arg0)) := by
  show (cfg0.win 2).cut (grid0.coords t) ((dat0 V c).after 2 t) = _
  rw [after0_2]
  unfold out0_2
  rw [View.canon_unit_zero zero_offsets]
  simp only [View.ld_unit_zero (S := S512x1024) zero_offsets]
  obtain ⟨-, -, -, -, e0, e1⟩ := block_of_point t
  funext j
  refine sq_entry (V c main_arg0) (iblk0 V c 0 t) t.val (fun p k r hr => iblk0_apply V c t p k r hr) j _ ?_
  show win0_2.index t (0 : Fin 2) * 512 + 1 * (j 0).val = 512 * t.val + (j 0).val; rw [e0]; omega

/-- An index of the first result is in point t's block iff each coordinate is in the block's range on its axis. -/
theorem mem_blk0_1 (t : Fin cfg0.N) (i : S8192x1024.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v0_0).slice (win0_1.rect t)).set ↔ _
  rw [View.set_slice_whole, Rect.mem_set_unit]
  exact Iff.rfl

/-- The same for the second result's one-column blocks. -/
theorem mem_blk0_2 (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_1).slice (win0_2.rect t)).set ↔ _
  rw [View.set_slice_whole, Rect.mem_set_unit]
  exact Iff.rfl

/-- The point whose blocks hold row r: r / 512. -/
theorem point_of_row (r : ℕ) (hr : r < 8192) : ∃ t : Fin cfg0.N, t.val = r / 512 :=
  ⟨⟨r / 512, by rw [show cfg0.N = 16 from N_0]; omega⟩, rfl⟩

/-- Every entry of the first result is written back by the point of its row. -/
theorem covered0_1 (i : S8192x1024.Idx) :
    ∃ t : Fin cfg0.N, (cfg0.win 1).flush t = true ∧ i ∈ ((cfg0.win 1).blk t).view.set := by
  have hi0 : (i 0).val < 8192 := (i 0).isLt
  have hi1 : (i 1).val < 1024 := (i 1).isLt
  obtain ⟨t, ht⟩ := point_of_row (i 0).val hi0
  obtain ⟨-, -, e0, e1, -⟩ := block_of_point t
  refine ⟨t, flush0_1 t, ?_⟩
  rw [mem_blk0_1]
  intro a
  match a with
  | ⟨0, _⟩ => show win0_1.index t (0 : Fin 2) * 512 ≤ (i 0).val ∧ (i 0).val < win0_1.index t (0 : Fin 2) * 512 + 512; rw [e0, ht]; omega
  | ⟨1, _⟩ => show win0_1.index t (1 : Fin 2) * 1024 ≤ (i 1).val ∧ (i 1).val < win0_1.index t (1 : Fin 2) * 1024 + 1024; rw [e1]; omega

/-- And every entry of the second. -/
theorem covered0_2 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := point_of_row (i 0).val hi0
  obtain ⟨-, -, -, -, e0, e1⟩ := block_of_point t
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 1 ≤ (i 1).val ∧ (i 1).val < win0_2.index t (1 : Fin 2) * 1 + 1; rw [e1]; omega

/-- After the region's sixteen write-backs the first result array holds the normalized rows of the argument array. -/
theorem arr0_1 (c : Dev nD) : (dat0 (F := Ideal) V c).arrAt 1 cfg0.N = Cert.Spec.NF (V c main_arg0) :=
  (dat0 (F := Ideal) V c).arrAt_eq_of_cover 1 (Cert.Spec.NF (V c main_arg0)) (fun t _ => flushed0_1_eq V c t) covered0_1

/-- And the second the column of their squared norms. -/
theorem arr0_2 (c : Dev nD) : (dat0 (F := Ideal) V c).arrAt 2 cfg0.N = Cert.Spec.SQ (V c main_arg0) :=
  (dat0 (F := Ideal) V c).arrAt_eq_of_cover 2 (Cert.Spec.SQ (V c main_arg0)) (fun t _ => flushed0_2_eq V c t) covered0_2

end Cert.KernelIdeal.Hand

end
-- ==== Proof.KernelIdeal.Pay1.lean ====
/-
  The second kernel's two store payloads read at their one index, at the ideal instance: the reset stores 0, and the
  accumulating store adds to the block's previous contents the tile's sum, over its 1024 × 1024 pairs of rows, of
  |max (a_p + b_q − 2 ⟨l_p, r_q⟩) 0|.
-/
import proofs.«142804_j77936476553589_1_alg».proof.Proof.Gen.KernelIdeal.Skeleton
import proofs.«142804_j77936476553589_1_alg».proof.Proof.SpecArr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The layout operations of the payload, read at coordinates -/

section Layout
variable {α : Type}

/-- A vector of `a` entries viewed as a column `[a, 1]` reads, at `(i, u)`, entry `i`: the two row-major positions are
    `i` and `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane sums, at the ideal instance -/

/-- The sum along the second axis of a 1024 × 1024 array: at row `p`, the sum of that row's entries. -/
theorem rowsum_apply (v : FVec Ideal S1024x1024 .f32) (h : S1024x1024.Reduces [1] S1024) (hφ : FKind.Formats .f32)
    (hacc : (0x00000000#32 : BitVec (FTy.bits .f32)) = FKind.add.neutral .f32 hφ) (p : Fin 1024) :
    multiReduction (F := Ideal) .add [1] S1024 v 0x00000000#32 h hφ hacc (ix1 p) = ∑ q : Fin 1024, v (ix2 p q) := by
  refine (Ideal.multiReduction_add_single v _ h hφ hacc (ix1 p)).trans ?_
  refine Finset.sum_congr rfl fun q _ => congrArg v ?_
  funext c
  exact Fin.ext (by match c with | ⟨0, _⟩ => rfl | ⟨1, _⟩ => rfl)

/-- The sum along the first axis of a 1024 × 1 column: at its one index, the sum of the column's entries. -/
theorem colsum_apply (v : FVec Ideal S1024x1 .f32) (h : S1024x1.Reduces [0] S1) (hφ : FKind.Formats .f32)
    (hacc : (0x00000000#32 : BitVec (FTy.bits .f32)) = FKind.add.neutral .f32 hφ) (u : Fin 1) :
    multiReduction (F := Ideal) .add [0] S1 v 0x00000000#32 h hφ hacc (ix1 u) = ∑ p : Fin 1024, v (ix2 p u) := by
  refine (Ideal.multiReduction_add_single v _ h hφ hacc (ix1 u)).trans ?_
  refine Finset.sum_congr rfl fun p _ => congrArg v ?_
  funext c
  exact Fin.ext (by match c with | ⟨0, _⟩ => rfl | ⟨1, _⟩ => rfl)

/-! ## The product of the two blocks of rows, read at an index

The dimension numbers contract the second axis of each operand, so entry `(p, q)` is the inner product of row `p` of the
left operand with row `q` of the right one. -/

theorem lhs_dot_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_dot_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_dot_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_dot_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero accumulator, at `(p, q)`: the inner product of the left operand's row `p` and the right
    operand's row `q`. -/
theorem matmul_pq_apply (l r : FVec Ideal S1024x1024 .bf16) (p q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_dot_0 _ _
    | ⟨1, _⟩ => exact (lhs_dot_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_dot_0 _ _
    | ⟨1, _⟩ => exact (rhs_dot_1 _ _).trans hk)
  rw [el, er]

/-- The absolute value at an index: the maximum of the entry and its negation. -/
theorem absf_apply {s : Shape} {φ : FTy} (x : FVec Ideal s φ) (i : s.Idx) : absf x i = max (x i) (-(x i)) := rfl

/-! ## The two payloads -/

/-- The reset payload is 0. -/
theorem pay1_apply (y : S1x1.Idx) : k1_pay1 (F := Ideal) y = 0 := by
  unfold k1_pay1
  exact Ideal.ofBits_zero_f32

/-- The accumulating payload: the previous contents plus the tile's sum over its pairs of rows. -/
theorem pay2_apply (xl xr : Vec Ideal S1024x1024 .bf16) (sl sr : Vec Ideal S1024x1 .f32) (xo : Vec Ideal S1x1 .f32) (y : S1x1.Idx) :
    k1_pay2 (F := Ideal) xl xr sl sr xo y
      = xo y + ∑ p : Fin 1024, ∑ q : Fin 1024,
          Cert.Spec.pairOf (sl (ix2 p (0 : Fin 1))) (sr (ix2 q (0 : Fin 1))) (∑ k : Fin 1024, xl (ix2 p k) * xr (ix2 q k)) := by
  obtain ⟨a, b, rfl⟩ : ∃ (a b : Fin 1), y = ix2 a b := ⟨y 0, y 1, eq_ix2 y⟩
  unfold k1_pay2
  dsimp only
  -- the identity casts
  simp only [shapeCast_self]
  -- the outer sum: the previous contents plus the one entry of the column's sum
  rw [addf_apply, shapeCast_a_1a_apply]
  refine congrArg (xo (ix2 a b) + ·) ((colsum_apply _ _ _ _ b).trans (Finset.sum_congr rfl fun p _ => ?_))
  -- the column's entry p is row p's sum
  refine (shapeCast_a_a1_apply _ _ p b).trans ((rowsum_apply _ _ _ _ p).trans (Finset.sum_congr rfl fun q _ => ?_))
  -- one pair's term, operation by operation
  rw [absf_apply, maximumf_apply, subf_apply, addf_apply, mulf_apply, broadcast_apply, broadcast_apply,
    broadcastTo_a1_ab_apply, broadcastTo_1b_ab_apply, transpose_ix2_apply, matmul_pq_apply]
  -- the word 0x00000000 is the extended real 0; the factor stays the word of 2
  have h0 : (FloatOps.ofBits FTy.f32 0x00000000#32 : Ideal .f32) = 0 := Ideal.ofBits_zero_f32
  rw [h0]
  unfold Cert.Spec.pairOf Cert.Spec.two
  rfl

end Cert.KernelIdeal.Hand

end
-- ==== Proof.KernelIdeal.V1.lean ====
/-
  What the second kernel region leaves in its 1 × 1 result array, at the ideal instance: entered with the normalized
  rows and the column of their squared norms in its two input arrays, it ends with the running total after all sixteen
  tiles.

  At grid point t, tile (t / 4, t % 4), the four input blocks are rows 1024 (t / 4) + p of the two arrays (left) and
  rows 1024 (4 + t % 4) + q (right), so the sum the point adds to the output block is the tile's share of the result;
  by induction on the point the output block holds the running total. The output block is written back at the last
  point only, and that one block is the whole 1 × 1 array.
-/
import proofs.«142804_j77936476553589_1_alg».proof.Proof.KernelIdeal.R1
import proofs.«142804_j77936476553589_1_alg».proof.Proof.KernelIdeal.Pay1
import proofs.«142804_j77936476553589_1_alg».proof.Proof.SpecArr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.Spec

/-! ## Where each window's block sits in its array -/

/-- The block index of every window at every grid point, decided over the sixteen points: at point t, tile
    (t / 4, t % 4), the left windows are at block row t / 4, the right windows at block row 4 + t % 4, every window
    at block column 0, and the output window at block (0, 0). -/
theorem idx1 : ∀ t : Fin cfg1.N,
    win1_0.index t (0 : Fin 2) = t.val / 4 ∧ win1_0.index t (1 : Fin 2) = 0
    ∧ win1_1.index t (0 : Fin 2) = 4 + t.val % 4 ∧ win1_1.index t (1 : Fin 2) = 0
    ∧ win1_2.index t (0 : Fin 2) = t.val / 4 ∧ win1_2.index t (1 : Fin 2) = 0
    ∧ win1_3.index t (0 : Fin 2) = 4 + t.val % 4 ∧ win1_3.index t (1 : Fin 2) = 0
    ∧ win1_4.index t (0 : Fin 2) = 0 ∧ win1_4.index t (1 : Fin 2) = 0 :=
  (by decide +kernel : ∀ t : Fin grid1.N, _)

/-- The array row of row p of the left block at point t: 1024 (t / 4) + p. -/
def lrow (t : Fin cfg1.N) (p : Fin 1024) : Fin 8192 :=
  ⟨t.val / 4 * 1024 + p.val, by
    have hN : t.val < 16 := lt_of_lt_of_eq t.isLt (show cfg1.N = 16 from N_1)
    have := p.isLt
    omega⟩

/-- The array row of row q of the right block at point t: 1024 (4 + t % 4) + q. -/
def rrow (t : Fin cfg1.N) (q : Fin 1024) : Fin 8192 :=
  ⟨(4 + t.val % 4) * 1024 + q.val, by have := q.isLt; omega⟩

/-- The left rows' block at (p, k) is the array at (1024 (t / 4) + p, k): a block's coordinate is the block index
    times the block's size plus the coordinate inside the block. -/
theorem lblk_apply (c : Dev nD) (t : Fin cfg1.N) (p k : Fin 1024) :
    lblk V c t (ix2 p k) = V c main_v0_0 (ix2 (lrow t p) k) := by
  obtain ⟨e0, e1, -⟩ := idx1 t
  show V c main_v0_0 (((cfg1.win 0).blk t).view.emb (ix2 p k)) = V c main_v0_0 (ix2 (lrow t p) k)
  refine congrArg (V c main_v0_0) (funext fun a => Fin.ext ?_)
  match a with
  | ⟨0, _⟩ => show win1_0.index t (0 : Fin 2) * 1024 + 1 * p.val = t.val / 4 * 1024 + p.val; rw [e0]; omega
  | ⟨1, _⟩ => show win1_0.index t (1 : Fin 2) * 1024 + 1 * k.val = k.val; rw [e1]; omega

/-- The right rows' block at (q, k) is the array at (1024 (4 + t % 4) + q, k). -/
theorem rblk_apply (c : Dev nD) (t : Fin cfg1.N) (q k : Fin 1024) :
    rblk V c t (ix2 q k) = V c main_v0_0 (ix2 (rrow t q) k) := by
  obtain ⟨-, -, e0, e1, -⟩ := idx1 t
  show V c main_v0_0 (((cfg1.win 1).blk t).view.emb (ix2 q k)) = V c main_v0_0 (ix2 (rrow t q) k)
  refine congrArg (V c main_v0_0) (funext fun a => Fin.ext ?_)
  match a with
  | ⟨0, _⟩ => show win1_1.index t (0 : Fin 2) * 1024 + 1 * q.val = (4 + t.val % 4) * 1024 + q.val; rw [e0]; omega
  | ⟨1, _⟩ => show win1_1.index t (1 : Fin 2) * 1024 + 1 * k.val = k.val; rw [e1]; omega

/-- The left norms' block at (p, 0) is the column at (1024 (t / 4) + p, 0). -/
theorem lsq_apply (c : Dev nD) (t : Fin cfg1.N) (p : Fin 1024) :
    lsq V c t (ix2 p (0 : Fin 1)) = V c main_v0_1 (ix2 (lrow t p) (0 : Fin 1)) := by
  obtain ⟨-, -, -, -, e0, e1, -⟩ := idx1 t
  show V c main_v0_1 (((cfg1.win 2).blk t).view.emb (ix2 p (0 : Fin 1))) = V c main_v0_1 (ix2 (lrow t p) (0 : Fin 1))
  refine congrArg (V c main_v0_1) (funext fun a => Fin.ext ?_)
  match a with
  | ⟨0, _⟩ => show win1_2.index t (0 : Fin 2) * 1024 + 1 * p.val = t.val / 4 * 1024 + p.val; rw [e0]; omega
  | ⟨1, _⟩ => show win1_2.index t (1 : Fin 2) * 1 + 1 * 0 = 0; rw [e1]

/-- The right norms' block at (q, 0) is the column at (1024 (4 + t % 4) + q, 0). -/
theorem rsq_apply (c : Dev nD) (t : Fin cfg1.N) (q : Fin 1024) :
    rsq V c t (ix2 q (0 : Fin 1)) = V c main_v0_1 (ix2 (rrow t q) (0 : Fin 1)) := by
  obtain ⟨-, -, -, -, -, -, e0, e1, -⟩ := idx1 t
  show V c main_v0_1 (((cfg1.win 3).blk t).view.emb (ix2 q (0 : Fin 1))) = V c main_v0_1 (ix2 (rrow t q) (0 : Fin 1))
  refine congrArg (V c main_v0_1) (funext fun a => Fin.ext ?_)
  match a with
  | ⟨0, _⟩ => show win1_3.index t (0 : Fin 2) * 1024 + 1 * q.val = (4 + t.val % 4) * 1024 + q.val; rw [e0]; omega
  | ⟨1, _⟩ => show win1_3.index t (1 : Fin 2) * 1 + 1 * 0 = 0; rw [e1]

/-! ## The blocks' entries as the specification's quantities -/

/-- The array of normalized rows at (r, k) is the normalized entry. -/
theorem NF_apply (x : X) (r : Fin 8192) (k : Fin 1024) : NF x (ix2 r k) = nf x r k := rfl

/-- The column of squared norms at (r, 0) is the squared norm of the normalized row r. -/
theorem SQ_apply (x : X) (r : Fin 8192) : SQ x (ix2 r (0 : Fin 1)) = sq x r := rfl

/-- Row p of the left block at a point of tile row i is left row 1024 i + p. -/
theorem lrow_eq (t : Fin cfg1.N) (i : Fin 4) (hi : i.val = t.val / 4) (p : Fin 1024) : lrow t p = lo (loT i p) :=
  Fin.ext (by show t.val / 4 * 1024 + p.val = i.val * 1024 + p.val; rw [hi])

/-- Row q of the right block at a point of tile column j is right row 1024 j + q, that is row 4096 + (1024 j + q):
    (4 + j) · 1024 + q = 4096 + (1024 j + q). -/
theorem rrow_eq (t : Fin cfg1.N) (j : Fin 4) (hj : j.val = t.val % 4) (q : Fin 1024) : rrow t q = hi (loT j q) :=
  Fin.ext (by show (4 + t.val % 4) * 1024 + q.val = 4096 + (j.val * 1024 + q.val); rw [hj]; omega)

variable (c : Dev nD) (x : X) (h0 : V c main_v0_0 = NF x) (h1 : V c main_v0_1 = SQ x)
include h0 in
/-- An entry of the left rows' block is a normalized entry of the argument. -/
theorem lblk_nf (t : Fin cfg1.N) (p k : Fin 1024) : lblk V c t (ix2 p k) = nf x (lrow t p) k := by
  rw [lblk_apply, h0, NF_apply]

include h0 in
/-- An entry of the right rows' block is a normalized entry of the argument. -/
theorem rblk_nf (t : Fin cfg1.N) (q k : Fin 1024) : rblk V c t (ix2 q k) = nf x (rrow t q) k := by
  rw [rblk_apply, h0, NF_apply]

include h1 in
/-- An entry of the left norms' block is the squared norm of a normalized row. -/
theorem lsq_sq (t : Fin cfg1.N) (p : Fin 1024) : lsq V c t (ix2 p (0 : Fin 1)) = sq x (lrow t p) := by
  rw [lsq_apply, h1, SQ_apply]

include h1 in
/-- An entry of the right norms' block is the squared norm of a normalized row. -/
theorem rsq_sq (t : Fin cfg1.N) (q : Fin 1024) : rsq V c t (ix2 q (0 : Fin 1)) = sq x (rrow t q) := by
  rw [rsq_apply, h1, SQ_apply]

include h0 h1 in
/-- What a point adds: at a point of tile (i, j), the sum over the blocks' pairs of rows of the pair's term built
    from the blocks' entries is the tile's share of the result. -/
theorem tile_eq (t : Fin cfg1.N) (i j : Fin 4) (hi : i.val = t.val / 4) (hj : j.val = t.val % 4) :
    (∑ p : Fin 1024, ∑ q : Fin 1024,
        pairOf (lsq V c t (ix2 p (0 : Fin 1))) (rsq V c t (ix2 q (0 : Fin 1)))
          (∑ k : Fin 1024, lblk V c t (ix2 p k) * rblk V c t (ix2 q k))) = tile x i j := by
  unfold Cert.Spec.tile
  refine Finset.sum_congr rfl fun p _ => Finset.sum_congr rfl fun q _ => ?_
  rw [pair_eq, lsq_sq V c x h1, rsq_sq V c x h1, lrow_eq t i hi, rrow_eq t j hj]
  unfold Cert.Spec.dot
  refine congrArg (pairOf _ _) (Finset.sum_congr rfl fun k _ => ?_)
  rw [lblk_nf V c x h0, rblk_nf V c x h0, lrow_eq t i hi, rrow_eq t j hj]

/-- After grid point n the output block holds the running total after n + 1 tiles. -/
theorem outsAt1_acc (c : Dev nD) (x : Cert.Spec.X) (h0 : V c main_v0_0 = Cert.Spec.NF x) (h1 : V c main_v0_1 = Cert.Spec.SQ x)
    (n : ℕ) (hn : n < cfg1.N) : outsAt1 (F := Ideal) V c n hn = fun _ => Cert.Spec.acc x n := by
  induction n with
  | zero =>
    funext y
    rw [outsAt1_zero, pay2_apply, pay1_apply]
    exact congrArg (fun s => (0 : EReal) + s)
      (tile_eq V c x h0 h1 ⟨0, hn⟩ ⟨0, by omega⟩ ⟨0, by omega⟩ (Nat.zero_div 4).symm (Nat.zero_mod 4).symm)
  | succ n ih =>
    funext y
    have hN : n + 1 < 16 := lt_of_lt_of_eq hn (show cfg1.N = 16 from N_1)
    rw [outsAt1_succ, pay2_apply, ih]
    exact congrArg (fun s => Cert.Spec.acc x n + s)
      (tile_eq V c x h0 h1 ⟨n + 1, hn⟩ ⟨(n + 1) / 4 % 4, Nat.mod_lt _ (by omega)⟩ ⟨(n + 1) % 4, Nat.mod_lt _ (by omega)⟩
        (by show (n + 1) / 4 % 4 = (n + 1) / 4; omega) rfl)

/-- After the region's one write-back (at the last point) the result array holds the total of all sixteen tiles. -/
theorem arr1_4 (c : Dev nD) (x : Cert.Spec.X) (h0 : V c main_v0_0 = Cert.Spec.NF x) (h1 : V c main_v0_1 = Cert.Spec.SQ x) :
    (dat1 (F := Ideal) V c).arrAt 4 cfg1.N = fun _ => Cert.Spec.acc x 15 := by
  have hN : cfg1.N = 16 := N_1
  have h15 : 15 < cfg1.N := by rw [hN]; decide
  refine (dat1 V c).arrAt_eq_of_cover 4 (fun _ => Cert.Spec.acc x 15) (fun t hf => ?_)
    (fun i => ⟨⟨15, h15⟩, (flush1_4 _).mpr rfl, ?_⟩)
  · have ht : t.val = 15 := by
      have h := (flush1_4 t).mp hf
      have hlt : t.val < 16 := lt_of_lt_of_eq t.isLt hN
      omega
    show (cfg1.win 4).cut (grid1.coords t) ((dat1 V c).after 4 t) = _
    rw [after1_4]
    obtain ⟨n, hn⟩ := t
    obtain rfl : n = 15 := ht
    rw [outsAt1_acc V c x h0 h1 15 hn]
    rfl
  · show i ∈ ((View.whole main_v1).slice (win1_4.rect ⟨15, h15⟩)).set
    rw [View.set_slice_whole, Rect.mem_set_unit]
    obtain ⟨-, -, -, -, -, -, -, -, e0, e1⟩ := idx1 ⟨15, h15⟩
    have hi0 : (i 0 : ℕ) < 1 := (i 0).isLt
    have hi1 : (i 1 : ℕ) < 1 := (i 1).isLt
    intro a
    match a with
    | ⟨0, _⟩ =>
      show win1_4.index ⟨15, h15⟩ (0 : Fin 2) * 1 ≤ (i 0 : ℕ) ∧ (i 0 : ℕ) < win1_4.index ⟨15, h15⟩ (0 : Fin 2) * 1 + 1
      rw [e0]; omega
    | ⟨1, _⟩ =>
      show win1_4.index ⟨15, h15⟩ (1 : Fin 2) * 1 ≤ (i 1 : ℕ) ∧ (i 1 : ℕ) < win1_4.index ⟨15, h15⟩ (1 : Fin 2) * 1 + 1
      rw [e1]; omega

end Cert.KernelIdeal.Hand

end
-- ==== Proof.SumTiles.lean ====
/-
  Sixteen tiles of 1024 × 1024 pairs, walked row by row and accumulated from 0, add up to the sum over all
  4096 × 4096 pairs: a sum over a product of finite index sets regrouped, in a commutative monoid.
-/
import proofs.«142804_j77936476553589_1_alg».proof.Proof.Spec
import Mathlib.Logic.Equiv.Fin.Basic
import Mathlib.Data.Fintype.BigOperators
import Mathlib.Algebra.BigOperators.Fin

noncomputable section

namespace Cert.Spec

/-- A sum over 4096 indices is the sum over 4 blocks of 1024: the index i · 1024 + p runs once through
    all of 0 … 4095 as (i, p) runs through the pairs, and a finite sum does not depend on the enumeration. -/
theorem sum_blocks {M : Type*} [AddCommMonoid M] (f : Fin 4096 → M) :
    ∑ a : Fin 4096, f a = ∑ i : Fin 4, ∑ p : Fin 1024, f (loT i p) := by
  rw [← Fintype.sum_prod_type' (f := fun (i : Fin 4) (p : Fin 1024) => f (loT i p))]
  symm
  refine Fintype.sum_equiv (finProdFinEquiv (m := 4) (n := 1024)) _ _ fun ip => ?_
  congr 1
  apply Fin.ext
  show ip.1.val * 1024 + ip.2.val = ip.2.val + 1024 * ip.1.val
  omega

/-- The result is the sum of its sixteen tiles. -/
theorem G_eq_tiles (x : X) : G x = ∑ i : Fin 4, ∑ j : Fin 4, tile x i j := by
  unfold G tile
  -- the left rows in four blocks
  rw [sum_blocks]
  refine Finset.sum_congr rfl fun i _ => ?_
  -- on the right, the row p of the block before the block index j of the right rows
  conv_rhs => rw [Finset.sum_comm]
  refine Finset.sum_congr rfl fun p _ => ?_
  -- the right rows in four blocks
  exact sum_blocks fun b => pair x (lo (loT i p)) (hi b)

/-- After the last grid point the running total is the result. -/
theorem acc_last (x : X) : acc x 15 = G x := by
  rw [G_eq_tiles]
  simp only [Fin.sum_univ_four]
  show 0 + tile x 0 0 + tile x 0 1 + tile x 0 2 + tile x 0 3
        + tile x 1 0 + tile x 1 1 + tile x 1 2 + tile x 1 3
        + tile x 2 0 + tile x 2 1 + tile x 2 2 + tile x 2 3
        + tile x 3 0 + tile x 3 1 + tile x 3 2 + tile x 3 3 = _
  simp only [zero_add, add_assoc]

end Cert.Spec

end
-- ==== Proof.KernelIdeal.Final.lean ====
/-
  The idealized program's result. After the first region the two intermediate arrays hold the normalized rows NF x
  and the column SQ x of their squared norms (x the argument array); entered with those, the second region leaves the
  total of its sixteen tiles in its 1 × 1 result array; the closing reshape moves that one entry to the scalar result;
  and the sixteen tiles add up to the sum G x over all pairs of a left and a right row.
-/
import proofs.«142804_j77936476553589_1_alg».proof.Proof.KernelIdeal.Run
import proofs.«142804_j77936476553589_1_alg».proof.Proof.KernelIdeal.V0
import proofs.«142804_j77936476553589_1_alg».proof.Proof.KernelIdeal.V1
import proofs.«142804_j77936476553589_1_alg».proof.Proof.SumTiles
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The second region is entered with the normalized rows in its first input array, -/
theorem E1_nf (c : Dev nD) : E1 m c main_v0_0 = Cert.Spec.NF (m ((c : Thread nD τ).loc main_arg0)) :=
  (W1_arr m c 1).trans (arr0_1 (E0 m) c)

/-- and the column of their squared norms in its second. -/
theorem E1_sq (c : Dev nD) : E1 m c main_v0_1 = Cert.Spec.SQ (m ((c : Thread nD τ).loc main_arg0)) :=
  (W1_arr m c 2).trans (arr0_2 (E0 m) c)

/-- It leaves the total of the sixteen tiles in its result array. -/
theorem W2_total (c : Dev nD) : E2 m c main_v1 = fun _ => Cert.Spec.acc (m ((c : Thread nD τ).loc main_arg0)) 15 :=
  (W2_v1 m c).symm.trans (arr1_4 (E1 m) c _ (E1_nf m c) (E1_sq m c))

/-- The scalar result after the reshape is G of the argument array. -/
theorem W3_result (c : Dev nD) :
    W3 m c (Proc.devRef .tc main_v2) = fun _ => Cert.Spec.G (m ((c : Thread nD τ).loc main_arg0)) := by
  have e : W3 m c (Proc.devRef .tc main_v2) = fun i => shapeCast S_ (E2 m c main_v1) shapeCasts_S1x1_S_ i := by
    show StableHlo.after hostOps2 (W2 m c) (Proc.devRef .tc main_v2) = _
    after_results
    rfl
  rw [e, W2_total, ← Cert.Spec.acc_last]
  rfl

/-- Every weakly fair execution of the idealized program terminates with the scalar result at G of the argument array,
    the argument array unchanged. -/
theorem run_G : θ_run (defs (F := Ideal)) (onTc (τ := τ) (main (F := Ideal))) ⟨m, fun _ => 0, ρ⟩ (fun r => ∀ c : Dev nD,
      r.2.mem ((c.tc : Thread nD τ).loc main_v2) = (fun _ => Cert.Spec.G (m ((c.tc : Thread nD τ).loc main_arg0)))
      ∧ r.2.mem ((c.tc : Thread nD τ).loc main_arg0) = m ((c.tc : Thread nD τ).loc main_arg0)) :=
  (θ_run defs _ _).mono (fun _ h c => ⟨(h c).1.trans (W3_result m c), (h c).2⟩) (run_result m ρ)

end Cert.KernelIdeal.Hand

end
-- ==== Proof.Ref.Read0.lean ====
/-
  The reference's run, read back one operation at a time: this module only brings the generated run and its
  read-at-an-index lemmas into the certificate; what is proved over them is in the sibling modules.
-/
import proofs.«142804_j77936476553589_1_alg».proof.Proof.Gen.ReferenceIdeal.Read
-- ==== Proof.Ref.IsG.lean ====
/-
  The reference's run ends with the result buffer holding G of the argument array.

  The reference is read one stage at a time, each at an index given by its coordinates: the row sums of squares, the
  clamped row norm, the normalized entries, their left and right halves, the squared norms of the normalized rows,
  the inner products, and the clamped distance of a pair. The last stage sums the pairs over the whole 4096 × 4096
  index set, which is the double sum over the two coordinates.
-/
import proofs.«142804_j77936476553589_1_alg».proof.Proof.Ref.Read0
import proofs.«142804_j77936476553589_1_alg».proof.Proof.Spec

noncomputable section

namespace Cert.RefValue

open Cert.ReferenceIdeal Cert.ReferenceIdeal.Gen Idealize.ShloMosaic Idealize.ShloMosaic.TcCoe Idealize.SL.Sem Idealize.ShloMosaic.StableHlo

open Cert.ReferenceIdeal.Read Idealize.ShloMosaic.ValueIdx Cert.Spec

/-- An argument array of the reference. -/
abbrev Arg : Type := (⟨S8192x1024, .f32⟩ : BufTy).Contents (Elt Ideal)

/-! ## The row norm and the normalized entries -/

/-- Stage 1 at row r is the row's sum of squares: the initial value is the zero word, and each summand is the
    square of the entry at (r, k). -/
theorem v1_eq (x0 : Arg) (r : Fin 8192) : val_main_v1 (F := Ideal) x0 (ix1 r) = ssq x0 r := by
  rw [val_main_v1_apply, val_main_cst_apply, Ideal.ofBits_def, Ideal.ofBits_zero_f32, zero_add]
  unfold Cert.Spec.ssq
  refine Finset.sum_congr rfl fun k _ => ?_
  have h : idx_main_v1 (ix1 r) k = ix2 r k :=
    funext fun a => Fin.ext (by match a with | ⟨0, _⟩ => rfl | ⟨1, _⟩ => rfl)
  rw [val_main_v0_apply, h]
  rfl

/-- Stage 5 at (r, 0) is the clamped norm of row r: the maximum of the square root of the row's sum of squares
    and ε. -/
theorem v5_eq (x0 : Arg) (r : Fin 8192) :
    val_main_v5 (F := Ideal) x0 (ix2 r (⟨0, Nat.one_pos⟩ : Fin 1)) = den x0 r := by
  have h : idx_main_v2 (ix2 r (⟨0, Nat.one_pos⟩ : Fin 1)) = ix1 r :=
    funext fun a => Fin.ext (by match a with | ⟨0, _⟩ => rfl)
  rw [val_main_v5_apply, val_main_v3_apply, val_main_v2_apply, h, v1_eq, val_main_v4_apply, val_main_cst_0_apply]
  rfl

/-- Stage 7 at (r, k) is the normalized entry: the entry divided by the clamped norm of its row. -/
theorem v7_eq (x0 : Arg) (r : Fin 8192) (k : Fin 1024) :
    val_main_v7 (F := Ideal) x0 (ix2 r k) = nf x0 r k := by
  have h : idx_main_v6 (ix2 r k) = ix2 r (⟨0, Nat.one_pos⟩ : Fin 1) :=
    funext fun a => Fin.ext (by match a with | ⟨0, _⟩ => rfl | ⟨1, _⟩ => rfl)
  rw [val_main_v7_apply, val_main_v6_apply, h, v5_eq]
  rfl

/-- The left half: stage 8 at (a, k) is the normalized entry of row a. -/
theorem v8_eq (x0 : Arg) (a : Fin 4096) (k : Fin 1024) :
    val_main_v8 (F := Ideal) x0 (ix2 a k) = nf x0 (lo a) k := by
  have h : idx_main_v8 (ix2 a k) = ix2 (lo a) k :=
    funext fun c => Fin.ext (by match c with | ⟨0, _⟩ => rfl | ⟨1, _⟩ => rfl)
  rw [val_main_v8_apply, h, v7_eq]

/-- The right half: stage 9 at (b, k) is the normalized entry of row 4096 + b. -/
theorem v9_eq (x0 : Arg) (b : Fin 4096) (k : Fin 1024) :
    val_main_v9 (F := Ideal) x0 (ix2 b k) = nf x0 (hi b) k := by
  have h : idx_main_v9 (ix2 b k) = ix2 (hi b) k :=
    funext fun c => Fin.ext (by match c with | ⟨0, _⟩ => rfl | ⟨1, _⟩ => rfl)
  rw [val_main_v9_apply, h, v7_eq]

/-! ## The squared norms of the normalized rows, and their inner products -/

/-- Stage 11 at a is the squared norm of the normalized left row a. -/
theorem v11_eq (x0 : Arg) (a : Fin 4096) : val_main_v11 (F := Ideal) x0 (ix1 a) = sq x0 (lo a) := by
  rw [val_main_v11_apply, val_main_cst_1_apply, Ideal.ofBits_def, Ideal.ofBits_zero_f32, zero_add]
  unfold Cert.Spec.sq
  refine Finset.sum_congr rfl fun k _ => ?_
  have h : idx_main_v11 (ix1 a) k = ix2 a k :=
    funext fun c => Fin.ext (by match c with | ⟨0, _⟩ => rfl | ⟨1, _⟩ => rfl)
  rw [val_main_v10_apply, h, v8_eq]
  rfl

/-- Stage 13 at b is the squared norm of the normalized right row 4096 + b. -/
theorem v13_eq (x0 : Arg) (b : Fin 4096) : val_main_v13 (F := Ideal) x0 (ix1 b) = sq x0 (hi b) := by
  rw [val_main_v13_apply, val_main_cst_2_apply, Ideal.ofBits_def, Ideal.ofBits_zero_f32, zero_add]
  unfold Cert.Spec.sq
  refine Finset.sum_congr rfl fun k _ => ?_
  have h : idx_main_v13 (ix1 b) k = ix2 b k :=
    funext fun c => Fin.ext (by match c with | ⟨0, _⟩ => rfl | ⟨1, _⟩ => rfl)
  rw [val_main_v12_apply, h, v9_eq]
  rfl

/-- Stage 14 at (a, b) is the inner product of the normalized left row a and right row 4096 + b. -/
theorem v14_eq (x0 : Arg) (a b : Fin 4096) :
    val_main_v14 (F := Ideal) x0 (ix2 a b) = dot x0 (lo a) (hi b) := by
  rw [val_main_v14_apply]
  unfold Cert.Spec.dot
  refine Finset.sum_congr rfl fun k _ => ?_
  have hl : lidx_main_v14 (ix2 a b) k = ix2 a k :=
    funext fun c => Fin.ext (by match c with | ⟨0, _⟩ => rfl | ⟨1, _⟩ => rfl)
  have hr : ridx_main_v14 (ix2 a b) k = ix2 b k :=
    funext fun c => Fin.ext (by match c with | ⟨0, _⟩ => rfl | ⟨1, _⟩ => rfl)
  rw [hl, hr, v8_eq, v9_eq]

/-! ## The clamped distance of a pair, and the sum over all pairs -/

/-- The left squared norm spread over the columns: stage 17 at (a, b) is that of row a. -/
theorem v17_eq (x0 : Arg) (a b : Fin 4096) : val_main_v17 (F := Ideal) x0 (ix2 a b) = sq x0 (lo a) := by
  have h1 : idx_main_v17 (ix2 a b) = ix2 a (⟨0, Nat.one_pos⟩ : Fin 1) :=
    funext fun c => Fin.ext (by match c with | ⟨0, _⟩ => rfl | ⟨1, _⟩ => rfl)
  have h2 : idx_main_v15 (ix2 a (⟨0, Nat.one_pos⟩ : Fin 1)) = ix1 a :=
    funext fun c => Fin.ext (by match c with | ⟨0, _⟩ => rfl)
  rw [val_main_v17_apply, h1, val_main_v15_apply, h2, v11_eq]

/-- The right squared norm spread over the rows: stage 18 at (a, b) is that of row 4096 + b. -/
theorem v18_eq (x0 : Arg) (a b : Fin 4096) : val_main_v18 (F := Ideal) x0 (ix2 a b) = sq x0 (hi b) := by
  have h1 : idx_main_v18 (ix2 a b) = ix2 (⟨0, Nat.one_pos⟩ : Fin 1) b :=
    funext fun c => Fin.ext (by match c with | ⟨0, _⟩ => rfl | ⟨1, _⟩ => rfl)
  have h2 : idx_main_v16 (ix2 (⟨0, Nat.one_pos⟩ : Fin 1) b) = ix1 b :=
    funext fun c => Fin.ext (by match c with | ⟨0, _⟩ => rfl)
  rw [val_main_v18_apply, h1, val_main_v16_apply, h2, v13_eq]

/-- Stage 25 at (a, b) is the clamped squared distance of left row a and right row 4096 + b: the sum of the two
    squared norms less twice the inner product, clamped below at the zero word's value 0, then its absolute value
    as the maximum of a value and its negation. -/
theorem v25_eq (x0 : Arg) (a b : Fin 4096) :
    val_main_v25 (F := Ideal) x0 (ix2 a b) = pair x0 (lo a) (hi b) := by
  rw [val_main_v25_apply, val_main_v24_apply, val_main_v22_apply, val_main_v19_apply, v17_eq, v18_eq,
    val_main_v21_apply, val_main_v20_apply, val_main_cst_3_apply, v14_eq,
    val_main_v23_apply, val_main_cst_4_apply, Ideal.ofBits_def, Ideal.ofBits_def, Ideal.ofBits_zero_f32,
    Ideal.hostAbsf_def, Ideal.absf_def]
  rfl

/-- The reference's last stage, read at its one index, is G of the argument. -/
theorem val_G (x0 : (⟨S8192x1024, .f32⟩ : BufTy).Contents (Elt Ideal)) (i : S_.Idx) :
    Cert.ReferenceIdeal.Read.val_main_v26 (F := Ideal) x0 i = Cert.Spec.G x0 := by
  rw [val_main_v26_apply, val_main_cst_5_apply, Ideal.ofBits_def, Ideal.ofBits_zero_f32, zero_add, sum_idx2]
  unfold Cert.Spec.G
  exact Finset.sum_congr rfl fun a _ => Finset.sum_congr rfl fun b _ => v25_eq x0 a b

/-- Every weakly fair execution of the reference terminates with the result at G of the argument, the argument unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = (fun _ => Cert.Spec.G (m ((c.tc : Thread nD τ).loc main_arg0)))
      ∧ r.2.mem ((c.tc : Thread nD τ).loc main_arg0) = m ((c.tc : Thread nD τ).loc main_arg0) := by
  refine (θ_run (defs (F := Ideal)) _ _).mono (fun _ h c => ⟨(h c).1.trans ?_, (h c).2⟩)
    (Cert.ReferenceIdeal.Value.run (F := Ideal) m ρ)
  rw [val_main_v26_eq]
  funext i
  exact val_G _ i

end Cert.RefValue

end
-- ==== Proof.lean ====
/-
  The certificate's claims, assembled.

  Both programs compute, from an array x of 8192 rows of 1024 entries, the sum over all pairs (left row a, right row b)
  of |max (‖n_a‖² + ‖n_b‖² − 2 ⟨n_a, n_b⟩, 0)|, where n_r is row r divided by max(‖row r‖₂, ε), the left rows are the first
  4096 and the right rows the last 4096 (Proof/Spec.lean: G). The reference does it with whole-array operations
  (Proof/Ref/IsG.lean reads its run back as G). The kernel's program does it in two pipelined kernel regions: the first
  normalizes the rows block by block and keeps the squared norms as a column (Proof/KernelIdeal/V0.lean); the second
  walks a 4 × 4 grid of 1024 × 1024 tiles of pairs, accumulating each tile's sum into one 1 × 1 block
  (Proof/KernelIdeal/V1.lean), and the sixteen tiles regroup to the whole sum in the commutative monoid of the
  extended reals (Proof/SumTiles.lean); no finiteness of the inputs is needed for that law, so the precondition is
  never opened. The frames of the kernel's program, at either instance, are its run through the two regions and the
  closing reshape (Proof/Kernel/Run.lean, Proof/KernelIdeal/Run.lean); the reference's frame is its run with the result
  dropped. The idealization rewrote no operation, so there is nothing to preserve.
-/
import proofs.«142804_j77936476553589_1_alg».proof.Defs
import proofs.«142804_j77936476553589_1_alg».proof.Proof.Gen.Kernel
import proofs.«142804_j77936476553589_1_alg».proof.Proof.Gen.KernelIdeal
import proofs.«142804_j77936476553589_1_alg».proof.Proof.Gen.ReferenceIdeal
import proofs.«142804_j77936476553589_1_alg».proof.Proof.Gen.Pre_finite_inputs
import proofs.«142804_j77936476553589_1_alg».proof.Proof.Kernel.Run
import proofs.«142804_j77936476553589_1_alg».proof.Proof.KernelIdeal.Final
import proofs.«142804_j77936476553589_1_alg».proof.Proof.Ref.IsG
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run_G m ρ)

/-- Both idealized programs, run from memories that agree on the argument array, end with G of that array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.G (m ((c.tc : Thread Cert.KernelIdeal.nD Cert.KernelIdeal.τ).loc Cert.KernelIdeal.main_arg0)),
    Cert.KernelIdeal.Hand.run_G m ρ, ?_⟩
  refine (θ_run Cert.ReferenceIdeal.defs _ _).mono (fun _ h c => ⟨(h c).1.trans ?_, (h c).2⟩) (Cert.RefValue.run_G m' ρ')
  rw [hagree c]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
